-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x170 : Shape := ⟨2, ![524288, 170]⟩
abbrev S524288 : Shape := ⟨1, ![524288]⟩
abbrev S170x170 : Shape := ⟨2, ![170, 170]⟩
abbrev S_ : Shape := ⟨0, ![]⟩
abbrev S170 : Shape := ⟨1, ![170]⟩
abbrev S170x1 : Shape := ⟨2, ![170, 1]⟩

class Facts : Prop where
  bcast_S_S524288x170 : S_.BroadcastsInDim S524288x170 (![] : Fin 0 → Fin S524288x170.rank)
  reducesTo_S524288x170_S_d0_1 : S524288x170.ReducesTo [0, 1] S_
  h_S_ : 0 < S_.numel
  bcast_S_S170x170 : S_.BroadcastsInDim S170x170 (![] : Fin 0 → Fin S170x170.rank)
  reducesTo_S170x170_S_d0_1 : S170x170.ReducesTo [0, 1] S_
  bcast_S_S524288 : S_.BroadcastsInDim S524288 (![] : Fin 0 → Fin S524288.rank)
  reducesTo_S524288_S_d0 : S524288.ReducesTo [0] S_
  reducesTo_S170x170_S170_d1 : S170x170.ReducesTo [1] S170
  bcast_S170_S170x1_0 : S170.BroadcastsInDim S170x1 (![0] : Fin 1 → Fin S170x1.rank)
  bcast_S170x1_S170x170_0_1 : S170x1.BroadcastsInDim S170x170 (![0, 1] : Fin 2 → Fin S170x170.rank)

variable [Facts]

def fn_part2 {F : FTy → Type} [FloatOps F] (main_v18 : IVec S_ 1) (main_v33 : FVec F S170x170 .f32) (main_v34 : FVec F S170x170 .f32) : IVec S_ 1 :=
  let main_v35 : IVec S170x170 1 := cmpf .oge main_v33 main_v34
  let main_c_11 : IVec S_ 1 := constantI S_ 1 1#1
  let main_v36 : IVec S_ 1 := (fun x v => Host.reduce IntOp.andi x v reducesTo_S170x170_S_d0_1 h_S_) main_v35 main_c_11
  let main_v37 : IVec S_ 1 := andi main_v18 main_v36
  main_v37

def fn_part1 {F : FTy → Type} [FloatOps F] (main_arg2 : FVec F S170x170 .f32) (main_v8 : IVec S_ 1) (main_v16 : IVec S524288 1) : IVec S_ 1 :=
  let main_c_5 : IVec S_ 1 := constantI S_ 1 1#1
  let main_v17 : IVec S_ 1 := (fun x v => Host.reduce IntOp.andi x v reducesTo_S524288_S_d0 h_S_) main_v16 main_c_5
  let main_v18 : IVec S_ 1 := andi main_v8 main_v17
  let main_cst_6 : FVec F S_ .f32 := constant S_ .f32 0x00000000#32
  let main_v19 : FVec F S170 .f32 := (fun x v => Host.reduceAdd x v reducesTo_S170x170_S170_d1 h_S_) main_arg2 main_cst_6
  let main_v20 : FVec F S170x1 .f32 := broadcastInDim S170x1 ![0] bcast_S170_S170x1_0 main_v19
  let main_v21 : FVec F S170x170 .f32 := broadcastInDim S170x170 ![0, 1] bcast_S170x1_S170x170_0_1 main_v20
  let main_v22 : FVec F S170x170 .f32 := Host.divf main_arg2 main_v21
  let main_v23 : IVec S170x170 32 := iotaInDim S170x170 32 0
  let main_v24 : IVec S170x170 32 := iotaInDim S170x170 32 1
  let main_c_7 : IVec S_ 32 := constantI S_ 32 0#32
  let main_v25 : IVec S170x170 32 := broadcastInDim S170x170 ![] bcast_S_S170x170 main_c_7
  let main_v26 : IVec S170x170 32 := addi main_v23 main_v25
  let main_v27 : IVec S170x170 1 := cmpi .eq main_v26 main_v24
  let main_v28 : FVec F S170x170 .f32 := uitofp .f32 main_v27
  let main_cst_8 : FVec F S_ .f32 := constant S_ .f32 0x3F4CCCCD#32
  let main_v29 : FVec F S170x170 .f32 := broadcastInDim S170x170 ![] bcast_S_S170x170 main_cst_8
  let main_v30 : FVec F S170x170 .f32 := mulf main_v29 main_v28
  let main_cst_9 : FVec F S_ .f32 := constant S_ .f32 0x3E4CCCCD#32
  let main_v31 : FVec F S170x170 .f32 := broadcastInDim S170x170 ![] bcast_S_S170x170 main_cst_9
  let main_v32 : FVec F S170x170 .f32 := mulf main_v31 main_v22
  let main_v33 : FVec F S170x170 .f32 := addf main_v30 main_v32
  let main_cst_10 : FVec F S_ .f32 := constant S_ .f32 0x00000000#32
  let main_v34 : FVec F S170x170 .f32 := broadcastInDim S170x170 ![] bcast_S_S170x170 main_cst_10
  fn_part2 (F := F) main_v18 main_v33 main_v34

def fn {F : FTy → Type} [FloatOps F] (main_arg0 : FVec F S524288x170 .f32) (main_arg1 : IVec S524288 32) (main_arg2 : FVec F S170x170 .f32) : IVec S_ 1 :=
  let main_v0 : FVec F S524288x170 .f32 := Host.absf main_arg0
  let main_cst : FVec F S_ .f32 := constant S_ .f32 0x7F800000#32
  let main_v1 : FVec F S524288x170 .f32 := broadcastInDim S524288x170 ![] bcast_S_S524288x170 main_cst
  let main_v2 : IVec S524288x170 1 := cmpf .olt main_v0 main_v1
  let main_c : IVec S_ 1 := constantI S_ 1 1#1
  let main_v3 : IVec S_ 1 := (fun x v => Host.reduce IntOp.andi x v reducesTo_S524288x170_S_d0_1 h_S_) main_v2 main_c
  let main_v4 : FVec F S170x170 .f32 := Host.absf main_arg2
  let main_cst_0 : FVec F S_ .f32 := constant S_ .f32 0x7F800000#32
  let main_v5 : FVec F S170x170 .f32 := broadcastInDim S170x170 ![] bcast_S_S170x170 main_cst_0
  let main_v6 : IVec S170x170 1 := cmpf .olt main_v4 main_v5
  let main_c_1 : IVec S_ 1 := constantI S_ 1 1#1
  let main_v7 : IVec S_ 1 := (fun x v => Host.reduce IntOp.andi x v reducesTo_S170x170_S_d0_1 h_S_) main_v6 main_c_1
  let main_v8 : IVec S_ 1 := andi main_v3 main_v7
  let main_c_2 : IVec S_ 32 := constantI S_ 32 4294967196#32
  let main_v9 : IVec S524288 32 := broadcastInDim S524288 ![] bcast_S_S524288 main_c_2
  let main_v10 : IVec S524288 1 := cmpi .eq main_arg1 main_v9
  let main_c_3 : IVec S_ 32 := constantI S_ 32 0#32
  let main_v11 : IVec S524288 32 := broadcastInDim S524288 ![] bcast_S_S524288 main_c_3
  let main_v12 : IVec S524288 1 := cmpi .sge main_arg1 main_v11
  let main_c_4 : IVec S_ 32 := constantI S_ 32 170#32
  let main_v13 : IVec S524288 32 := broadcastInDim S524288 ![] bcast_S_S524288 main_c_4
  let main_v14 : IVec S524288 1 := cmpi .slt main_arg1 main_v13
  let main_v15 : IVec S524288 1 := andi main_v12 main_v14
  let main_v16 : IVec S524288 1 := ori main_v10 main_v15
  fn_part1 (F := F) main_arg2 main_v8 main_v16
-- ==== Kernel.lean ====
abbrev S524288x170 : Shape := ⟨2, ![524288, 170]⟩
abbrev S524288 : Shape := ⟨1, ![524288]⟩
abbrev S170x170 : Shape := ⟨2, ![170, 170]⟩
abbrev S_ : Shape := ⟨0, ![]⟩
abbrev S170 : Shape := ⟨1, ![170]⟩
abbrev S170x1 : Shape := ⟨2, ![170, 1]⟩
abbrev S170x128 : Shape := ⟨2, ![170, 128]⟩
abbrev S524288x1 : Shape := ⟨2, ![524288, 1]⟩
abbrev S2x8x128 : Shape := ⟨3, ![2, 8, 128]⟩
abbrev S4096x1 : Shape := ⟨2, ![4096, 1]⟩
abbrev S4096x170 : Shape := ⟨2, ![4096, 170]⟩
abbrev S1x8x128 : Shape := ⟨3, ![1, 8, 128]⟩
abbrev S4096x128 : Shape := ⟨2, ![4096, 128]⟩
abbrev S4096 : Shape := ⟨1, ![4096]⟩
abbrev S1 : Shape := ⟨1, ![1]⟩
abbrev S1x1 : Shape := ⟨2, ![1, 1]⟩
abbrev S1x1x1 : Shape := ⟨3, ![1, 1, 1]⟩

abbrev nBuf : Space → Nat
  | .hbm => 58
  | .vmem => 10
  | .smem => 0
  | _ => 0

abbrev bufTy : (tb : Table) → Fin (tcTables nBuf tb) → BufTy
  | .hbm, ⟨0, _⟩ => ⟨S524288x170, .f32⟩
  | .hbm, ⟨1, _⟩ => ⟨S524288, .i32⟩
  | .hbm, ⟨2, _⟩ => ⟨S170x170, .f32⟩
  | .hbm, ⟨3, _⟩ => ⟨S_, .f32⟩
  | .hbm, ⟨4, _⟩ => ⟨S170, .f32⟩
  | .hbm, ⟨5, _⟩ => ⟨S170x1, .f32⟩
  | .hbm, ⟨6, _⟩ => ⟨S170x170, .f32⟩
  | .hbm, ⟨7, _⟩ => ⟨S170x170, .f32⟩
  | .hbm, ⟨8, _⟩ => ⟨S170x170, .i32⟩
  | .hbm, ⟨9, _⟩ => ⟨S170x170, .i32⟩
  | .hbm, ⟨10, _⟩ => ⟨S_, .i32⟩
  | .hbm, ⟨11, _⟩ => ⟨S170x170, .i32⟩
  | .hbm, ⟨12, _⟩ => ⟨S170x170, .i32⟩
  | .hbm, ⟨13, _⟩ => ⟨S170x170, .i1⟩
  | .hbm, ⟨14, _⟩ => ⟨S170x170, .f32⟩
  | .hbm, ⟨15, _⟩ => ⟨S_, .f32⟩
  | .hbm, ⟨16, _⟩ => ⟨S170x170, .f32⟩
  | .hbm, ⟨17, _⟩ => ⟨S170x170, .f32⟩
  | .hbm, ⟨18, _⟩ => ⟨S_, .f32⟩
  | .hbm, ⟨19, _⟩ => ⟨S170x170, .f32⟩
  | .hbm, ⟨20, _⟩ => ⟨S170x170, .f32⟩
  | .hbm, ⟨21, _⟩ => ⟨S170x170, .f32⟩
  | .hbm, ⟨22, _⟩ => ⟨S_, .f32⟩
  | .hbm, ⟨23, _⟩ => ⟨S170x170, .f32⟩
  | .hbm, ⟨24, _⟩ => ⟨S170x170, .i1⟩
  | .hbm, ⟨25, _⟩ => ⟨S_, .f32⟩
  | .hbm, ⟨26, _⟩ => ⟨S_, .f32⟩
  | .hbm, ⟨27, _⟩ => ⟨S170x170, .f32⟩
  | .hbm, ⟨28, _⟩ => ⟨S170x170, .f32⟩
  | .hbm, ⟨29, _⟩ => ⟨S170x170, .f32⟩
  | .hbm, ⟨30, _⟩ => ⟨S170x170, .f32⟩
  | .hbm, ⟨31, _⟩ => ⟨S_, .f32⟩
  | .hbm, ⟨32, _⟩ => ⟨S_, .f32⟩
  | .hbm, ⟨33, _⟩ => ⟨S170x170, .f32⟩
  | .hbm, ⟨34, _⟩ => ⟨S170x170, .f32⟩
  | .hbm, ⟨35, _⟩ => ⟨S_, .f32⟩
  | .hbm, ⟨36, _⟩ => ⟨S170, .f32⟩
  | .hbm, ⟨37, _⟩ => ⟨S170x1, .f32⟩
  | .hbm, ⟨38, _⟩ => ⟨S170x128, .f32⟩
  | .hbm, ⟨39, _⟩ => ⟨S170x170, .bf16⟩
  | .hbm, ⟨40, _⟩ => ⟨S170x170, .f32⟩
  | .hbm, ⟨41, _⟩ => ⟨S170x170, .f32⟩
  | .hbm, ⟨42, _⟩ => ⟨S170x170, .bf16⟩
  | .hbm, ⟨43, _⟩ => ⟨S170x128, .bf16⟩
  | .hbm, ⟨44, _⟩ => ⟨S170x128, .f32⟩
  | .hbm, ⟨45, _⟩ => ⟨S170x128, .f32⟩
  | .hbm, ⟨46, _⟩ => ⟨S170x128, .bf16⟩
  | .hbm, ⟨47, _⟩ => ⟨S524288x1, .i32⟩
  | .hbm, ⟨48, _⟩ => ⟨S2x8x128, .f32⟩
  | .hbm, ⟨49, _⟩ => ⟨S1x1x1, .f32⟩
  | .hbm, ⟨50, _⟩ => ⟨S_, .f32⟩
  | .hbm, ⟨51, _⟩ => ⟨S1x1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S4096x1, .i32⟩
  | .local _ .vmem, ⟨1, _⟩ => ⟨S4096x1, .i32⟩
  | .local _ .vmem, ⟨2, _⟩ => ⟨S4096x170, .f32⟩
  | .local _ .vmem, ⟨3, _⟩ => ⟨S4096x170, .f32⟩
  | .local _ .vmem, ⟨4, _⟩ => ⟨S170x170, .bf16⟩
  | .local _ .vmem, ⟨5, _⟩ => ⟨S170x170, .bf16⟩
  | .local _ .vmem, ⟨6, _⟩ => ⟨S170x128, .bf16⟩
  | .local _ .vmem, ⟨7, _⟩ => ⟨S170x128, .bf16⟩
  | .local _ .vmem, ⟨8, _⟩ => ⟨S1x8x128, .f32⟩
  | .local _ .vmem, ⟨9, _⟩ => ⟨S1x8x128, .f32⟩
  | _, _ => ⟨S524288x170, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x170 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S170x170 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S170x170 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S170x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S170x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S170x170_S170_d1 : S170x170.ReducesTo [1] S170
  h_S_ : 0 < S_.numel
  bcast_S170_S170x1_0 : S170.BroadcastsInDim S170x1 (![0] : Fin 1 → Fin S170x1.rank)
  bcast_S170x1_S170x170_0_1 : S170x1.BroadcastsInDim S170x170 (![0, 1] : Fin 2 → Fin S170x170.rank)
  bcast_S_S170x170 : S_.BroadcastsInDim S170x170 (![] : Fin 0 → Fin S170x170.rank)
  bcast_S170x1_S170x128_0_1 : S170x1.BroadcastsInDim S170x128 (![0, 1] : Fin 2 → Fin S170x128.rank)
  bitsLt_bf16_f32 : FTy.bits .bf16 < FTy.bits .f32
  shapeCasts_S524288_S524288x1 : S524288.ShapeCasts S524288x1
  inb_S1x8x128_S1x8x128_0_0_0 : ∀ a, (![0, 0, 0] : Fin 3 → Nat) a + S1x8x128.size a ≤ S1x8x128.size a
  h_S1x8x128 : 0 < S1x8x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x170_d1_w32 : S4096x170.Iotas .tc 32 [1]
  broadcasts_S4096x1_S4096x170 : S4096x1.Broadcasts S4096x170
  natLt_1_32 : 1 < 32
  inb_S170x170_S170x170_0_0 : ∀ a, (![0, 0] : Fin 2 → Nat) a + S170x170.size a ≤ S170x170.size a
  h_S170x170 : 0 < S170x170.numel
  shapeCasts_S170x170_S170x170 : S170x170.ShapeCasts S170x170
  inb_S170x128_S170x128_0_0 : ∀ a, (![0, 0] : Fin 2 → Nat) a + S170x128.size a ≤ S170x128.size a
  h_S170x128 : 0 < S170x128.numel
  shapeCasts_S170x128_S170x128 : S170x128.ShapeCasts S170x128
  slices_S4096x128_o0_0_S4096x1 : S4096x128.Slices ![0, 0] S4096x1
  inb_S4096x170_S4096x170_0_0 : ∀ a, (![0, 0] : Fin 2 → Nat) a + S4096x170.size a ≤ S4096x170.size a
  h_S4096x170 : 0 < S4096x170.numel
  reduces_S4096x170_S4096 : S4096x170.Reduces [1] S4096
  shapeCasts_S4096_S4096x1 : S4096.ShapeCasts S4096x1
  reduces_S4096x1_S1 : S4096x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  dot_S4096x170_S170x170_S4096x170_1_0_0_1_n_n_wf : DotDims.WF S4096x170 S170x170 S4096x170 [1] [0] [0] [1] [] []
  dot_S4096x170_S170x128_S4096x128_1_0_0_1_n_n_wf : DotDims.WF S4096x170 S170x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S524288x1.size a
  hwx0_0 : ∀ i : grid0.Coords, EltTy.bits .i32 = 32 ∨ (Rect.block (s := S524288x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x170.size a ≤ S524288x170.size a
  hwx0_1 : ∀ i : grid0.Coords, EltTy.bits .f32 = 32 ∨ (Rect.block (s := S524288x170) S4096x170.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S170x170.size a ≤ S170x170.size a
  hwx0_2 : ∀ i : grid0.Coords, EltTy.bits .bf16 = 32 ∨ (Rect.block (s := S170x170) S170x170.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S170x170.size a ≤ S170x170.size a
  hwx0_3 : ∀ i : grid0.Coords, EltTy.bits .bf16 = 32 ∨ (Rect.block (s := S170x170) S170x170.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S170x128.size a ≤ S170x128.size a
  hwx0_4 : ∀ i : grid0.Coords, EltTy.bits .bf16 = 32 ∨ (Rect.block (s := S170x128) S170x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S170x128.size a ≤ S170x128.size a
  hwx0_5 : ∀ i : grid0.Coords, EltTy.bits .bf16 = 32 ∨ (Rect.block (s := S170x128) S170x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

def dot_S4096x170_S170x170_S4096x170_1_0_0_1_n_n : DotDims S4096x170 S170x170 S4096x170 where
  lhsContracting := [1]
  rhsContracting := [0]
  lhsNonContracting := [0]
  rhsNonContracting := [1]
  lhsBatch := []
  rhsBatch := []
  wf := dot_S4096x170_S170x170_S4096x170_1_0_0_1_n_n_wf
def dot_S4096x170_S170x128_S4096x128_1_0_0_1_n_n : DotDims S4096x170 S170x128 S4096x128 where
  lhsContracting := [1]
  rhsContracting := [0]
  lhsNonContracting := [0]
  rhsNonContracting := [1]
  lhsBatch := []
  rhsBatch := []
  wf := dot_S4096x170_S170x128_S4096x128_1_0_0_1_n_n_wf

abbrev win0_0 : Pipeline.Window sig grid0 :=
  Pipeline.Window.ofSpec (Memref.whole main_v32) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x170.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S170x170.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S170x170.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S170x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S170x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S524288x170 : Shape := ⟨2, ![524288, 170]⟩
abbrev S524288 : Shape := ⟨1, ![524288]⟩
abbrev S170x170 : Shape := ⟨2, ![170, 170]⟩
abbrev S_ : Shape := ⟨0, ![]⟩
abbrev S524288x1 : Shape := ⟨2, ![524288, 1]⟩
abbrev S1x170 : Shape := ⟨2, ![1, 170]⟩

abbrev nBuf : Space → Nat
  | .hbm => 76
  | .vmem => 0
  | .smem => 0
  | _ => 0

abbrev bufTy : (tb : Table) → Fin (tcTables nBuf tb) → BufTy
  | .hbm, ⟨0, _⟩ => ⟨S524288x170, .f32⟩
  | .hbm, ⟨1, _⟩ => ⟨S524288, .i32⟩
  | .hbm, ⟨2, _⟩ => ⟨S170x170, .f32⟩
  | .hbm, ⟨3, _⟩ => ⟨S_, .i32⟩
  | .hbm, ⟨4, _⟩ => ⟨S524288, .i32⟩
  | .hbm, ⟨5, _⟩ => ⟨S524288, .i1⟩
  | .hbm, ⟨6, _⟩ => ⟨S_, .i32⟩
  | .hbm, ⟨7, _⟩ => ⟨S_, .i32⟩
  | .hbm, ⟨8, _⟩ => ⟨S524288, .i32⟩
  | .hbm, ⟨9, _⟩ => ⟨S524288, .i32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x170, .f32⟩
  | .hbm, ⟨19, _⟩ => ⟨S_, .f32⟩
  | .hbm, ⟨20, _⟩ => ⟨S524288, .f32⟩
  | .hbm, ⟨21, _⟩ => ⟨S524288x1, .f32⟩
  | .hbm, ⟨22, _⟩ => ⟨S524288x170, .f32⟩
  | .hbm, ⟨23, _⟩ => ⟨S524288x170, .f32⟩
  | .hbm, ⟨24, _⟩ => ⟨S524288x1, .i32⟩
  | .hbm, ⟨25, _⟩ => ⟨S1x170, .i32⟩
  | .hbm, ⟨26, _⟩ => ⟨S524288x170, .i32⟩
  | .hbm, ⟨27, _⟩ => ⟨S524288x170, .i32⟩
  | .hbm, ⟨28, _⟩ => ⟨S524288x170, .i1⟩
  | .hbm, ⟨29, _⟩ => ⟨S524288x170, .f32⟩
  | .hbm, ⟨30, _⟩ => ⟨S_, .f32⟩
  | .hbm, ⟨31, _⟩ => ⟨S524288x170, .f32⟩
  | .hbm, ⟨32, _⟩ => ⟨S524288x170, .f32⟩
  | .hbm, ⟨33, _⟩ => ⟨S_, .f32⟩
  | .hbm, ⟨34, _⟩ => ⟨S524288x170, .f32⟩
  | .hbm, ⟨35, _⟩ => ⟨S524288x170, .f32⟩
  | .hbm, ⟨36, _⟩ => ⟨S524288x170, .f32⟩
  | .hbm, ⟨37, _⟩ => ⟨S524288x1, .i1⟩
  | .hbm, ⟨38, _⟩ => ⟨S524288x1, .f32⟩
  | .hbm, ⟨39, _⟩ => ⟨S524288x170, .f32⟩
  | .hbm, ⟨40, _⟩ => ⟨S524288x170, .f32⟩
  | .hbm, ⟨41, _⟩ => ⟨S_, .f32⟩
  | .hbm, ⟨42, _⟩ => ⟨S524288, .f32⟩
  | .hbm, ⟨43, _⟩ => ⟨S_, .f32⟩
  | .hbm, ⟨44, _⟩ => ⟨S524288, .f32⟩
  | .hbm, ⟨45, _⟩ => ⟨S524288, .f32⟩
  | .hbm, ⟨46, _⟩ => ⟨S524288x1, .f32⟩
  | .hbm, ⟨47, _⟩ => ⟨S524288x170, .f32⟩
  | .hbm, ⟨48, _⟩ => ⟨S524288x170, .f32⟩
  | .hbm, ⟨49, _⟩ => ⟨S524288x170, .f32⟩
  | .hbm, ⟨50, _⟩ => ⟨S_, .f32⟩
  | .hbm, ⟨51, _⟩ => ⟨S524288, .f32⟩
  | .hbm, ⟨52, _⟩ => ⟨S524288x1, .f32⟩
  | .hbm, ⟨53, _⟩ => ⟨S524288x1, .f32⟩
  | .hbm, ⟨54, _⟩ => ⟨S524288x170, .f32⟩
  | .hbm, ⟨55, _⟩ => ⟨S524288x170, .f32⟩
  | .hbm, ⟨56, _⟩ => ⟨S_, .f32⟩
  | .hbm, ⟨57, _⟩ => ⟨S524288x170, .f32⟩
  | .hbm, ⟨58, _⟩ => ⟨S524288x170, .i1⟩
  | .hbm, ⟨59, _⟩ => ⟨S_, .f32⟩
  | .hbm, ⟨60, _⟩ => ⟨S_, .f32⟩
  | .hbm, ⟨61, _⟩ => ⟨S524288x170, .f32⟩
  | .hbm, ⟨62, _⟩ => ⟨S524288x170, .f32⟩
  | .hbm, ⟨63, _⟩ => ⟨S524288x170, .f32⟩
  | .hbm, ⟨64, _⟩ => ⟨S524288x170, .f32⟩
  | .hbm, ⟨65, _⟩ => ⟨S524288x170, .f32⟩
  | .hbm, ⟨66, _⟩ => ⟨S_, .f32⟩
  | .hbm, ⟨67, _⟩ => ⟨S_, .f32⟩
  | .hbm, ⟨68, _⟩ => ⟨S524288x170, .f32⟩
  | .hbm, ⟨69, _⟩ => ⟨S524288x170, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S524288x170, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_cst : Ref sig .tc := ⟨.hbm, 41, rfl⟩
abbrev main_call2_v0 : Ref sig .tc := ⟨.hbm, 42, rfl⟩
abbrev main_call2_cst_0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_cst_1 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_call3_v0 : Ref sig .tc := ⟨.hbm, 60, rfl⟩
abbrev main_call3_v1 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_7 : Ref sig .tc := ⟨.hbm, 66, rfl⟩
abbrev main_call4_v0 : Ref sig .tc := ⟨.hbm, 67, rfl⟩
abbrev main_call4_v1 : Ref sig .tc := ⟨.hbm, 68, rfl⟩
abbrev main_v31 : Ref sig .tc := ⟨.hbm, 69, rfl⟩
abbrev main_cst_8 : Ref sig .tc := ⟨.hbm, 70, rfl⟩
abbrev main_v32 : Ref sig .tc := ⟨.hbm, 71, rfl⟩
abbrev main_cst_9 : Ref sig .tc := ⟨.hbm, 72, rfl⟩
abbrev main_v33 : Ref sig .tc := ⟨.hbm, 73, rfl⟩
abbrev main_cst_10 : Ref sig .tc := ⟨.hbm, 74, rfl⟩
abbrev main_v34 : Ref sig .tc := ⟨.hbm, 75, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  reducesTo_S524288x170_S524288_d1 : S524288x170.ReducesTo [1] S524288
  h_S_ : 0 < S_.numel
  bcast_S524288x1_S524288x170_0_1 : S524288x1.BroadcastsInDim S524288x170 (![0, 1] : Fin 2 → Fin S524288x170.rank)
  bcast_S1x170_S524288x170_0_1 : S1x170.BroadcastsInDim S524288x170 (![0, 1] : Fin 2 → Fin S524288x170.rank)
  bcast_S_S524288x170 : S_.BroadcastsInDim S524288x170 (![] : Fin 0 → Fin S524288x170.rank)
  reducesTo_S524288x170_S_d0_1 : S524288x170.ReducesTo [0, 1] S_
  gather_S170x170_S524288x1_S524288x170_1_0_n_n_0_1_1170_wf : GatherDims.WF S170x170 S524288x1 S524288x170 [1] [0] [] [0] [] 1 ![1, 170]

variable [Facts₀]

def gather_S170x170_S524288x1_S524288x170_1_0_n_n_0_1_1170 : GatherDims S170x170 S524288x1 S524288x170 where
  offsetDims := [1]
  collapsedSliceDims := [0]
  operandBatchingDims := []
  startIndicesBatchingDims := []
  startIndexMap := [0]
  indexVectorDim := 1
  sliceSizes := ![1, 170]
  wf := gather_S170x170_S524288x1_S524288x170_1_0_n_n_0_1_1170_wf

class Facts : Prop extends Facts₀ where

variable [Facts]
-- ==== Proof.Spec.lean ====
/-
  The soft-label KL loss, as mathematics over the extended reals.

  A batch of 524288 rows, 170 classes. Row r has logits l = L r (170 numbers) and a label t (a 32-bit word: a class
  0..169, or the ignore label −100). A 170 × 170 similarity matrix S gives every class i a SOFT-LABEL ROW
      soft S i c = a · [i = c] + b · S i c / (Σ_c' S i c')          (a, b the f32 words for 0.8 and 0.2),
  and the loss of a row is the KL divergence of its label's soft row against the softmax of its logits,
      Σ_c [p_c > 0] p_c · (log p_c − lsm l c),      p_c = soft S t c,      lsm = the row's log-softmax,
  zero for an ignored row; the result is the batch mean, clamped below at zero.

  Two arrangements of that number are defined here.  `rowR` is the direct one (the row's soft label formed from the
  label's similarity row, then the masked sum over classes).  `rowK` gathers from per-class TABLES by a one-hot
  product: the soft rows split as a leading part and a remainder (hi + lo, the remainder being x − x), the per-class
  entropy Σ_c [p > 0] p log p tabulated likewise, and the row's loss taken as entropy − Σ_c p_c · lsm l c.
  The totals are taken block by block (128 blocks of 4096 rows, two halves of 64 blocks each accumulated from zero):
  `accum`.
-/
import Idealize.ShloMosaic.PureOps.Ideal
import Idealize.ShloMosaic.PureOps.Ideal.Laws

noncomputable section

namespace Cert.Spec

open Idealize.ShloMosaic

/-- The ignore label −100 as a 32-bit word. -/
abbrev ign : BitVec 32 := 4294967196#32

/-- The weight of the label's own class (the f32 word nearest 0.8). -/
abbrev wA : EReal := Ideal.ofBits .f32 0x3F4CCCCD#32
/-- The weight of the normalised similarity row (the f32 word nearest 0.2). -/
abbrev wB : EReal := Ideal.ofBits .f32 0x3E4CCCCD#32
/-- The start value of a row maximum (the f32 word of −∞). -/
abbrev wNegInf : EReal := Ideal.ofBits .f32 0xFF800000#32
/-- The batch size 524288 as an f32 word. -/
abbrev wK : EReal := Ideal.ofBits .f32 0x49000000#32

/-- 1 on a labelled row, 0 on an ignored one. -/
def valid (t : BitVec 32) : EReal := if t = ign then 0 else 1
/-- The label used for gathering: class 0 stands in on an ignored row. -/
def safe (t : BitVec 32) : BitVec 32 := if t = ign then 0#32 else t
/-- The one-hot row of a label: 1 at the label's class, 0 elsewhere (all zero if the label is no class). -/
def hot (t : BitVec 32) (k : Fin 170) : EReal := if BitVec.ofNat 32 k.val = safe t then 1 else 0
/-- The class a label selects (for a label in range, the label itself). -/
def cls (t : BitVec 32) : Fin 170 := ⟨(safe t).toNat % 170, Nat.mod_lt _ (by decide)⟩

/-- The sum of class i's similarity row. -/
def rowSum (S : Fin 170 → Fin 170 → EReal) (i : Fin 170) : EReal := ∑ c : Fin 170, S i c
/-- Class i's soft-label row: a on the class itself plus b times its similarity row normalised by its sum. -/
def soft (S : Fin 170 → Fin 170 → EReal) (i c : Fin 170) : EReal :=
  wA * (if i = c then 1 else 0) + wB * Ideal.div (S i c) (rowSum S i)
/-- p ↦ p log p on the positive numbers, 0 elsewhere (the convention 0 log 0 = 0). -/
def plogp (x : EReal) : EReal := if 0 < x then x * Ideal.log x else 0
/-- The (negative) entropy Σ_c p log p of class i's soft-label row. -/
def ent (S : Fin 170 → Fin 170 → EReal) (i : Fin 170) : EReal := ∑ c : Fin 170, plogp (soft S i c)

/-- The maximum of a row of logits (a fold of max from −∞). -/
def rmax (l : Fin 170 → EReal) : EReal := (Finset.univ : Finset (Fin 170)).fold max wNegInf l
/-- The log-softmax of a row at class c: (l c − max) − log Σ_c' exp (l c' − max). -/
def lsm (l : Fin 170 → EReal) (c : Fin 170) : EReal :=
  (l c - rmax l) - Ideal.log (∑ c' : Fin 170, Ideal.exp (l c' - rmax l))

/-- A row's loss gathered from tables by the label's one-hot row: the tabulated entropy (two parts) minus the sum
    over classes of the gathered soft label (two parts) times the log-softmax; zero on an ignored row. -/
def rowLoss (t : BitVec 32) (l : Fin 170 → EReal) (hi lo : Fin 170 → Fin 170 → EReal) (ehi elo : Fin 170 → EReal) : EReal :=
  valid t * (((∑ k : Fin 170, hot t k * ehi k) + (∑ k : Fin 170, hot t k * elo k))
    - ∑ c : Fin 170, ((∑ k : Fin 170, hot t k * hi k c) + (∑ k : Fin 170, hot t k * lo k c)) * lsm l c)

/-- The table arrangement at the tables of S: leading parts the tables themselves, remainders x − x. -/
def rowK (S : Fin 170 → Fin 170 → EReal) (t : BitVec 32) (l : Fin 170 → EReal) : EReal :=
  rowLoss t l (soft S) (fun k c => soft S k c - soft S k c) (ent S) (fun k => ent S k - ent S k)

/-- The row's soft label formed directly: a on the label's class plus b times the label's normalised similarity
    row, all zero on an ignored row. -/
def softR (S : Fin 170 → Fin 170 → EReal) (t : BitVec 32) (c : Fin 170) : EReal :=
  (wA * hot t c + wB * Ideal.div (S (cls t) c) (rowSum S (cls t))) * valid t
/-- One class's KL term: p · (log p − lsm) where p > 0, else 0. -/
def klR (S : Fin 170 → Fin 170 → EReal) (t : BitVec 32) (l : Fin 170 → EReal) (c : Fin 170) : EReal :=
  if 0 < softR S t c then softR S t c * (Ideal.log (softR S t c) - lsm l c) else 0
/-- The direct arrangement of a row's loss. -/
def rowR (S : Fin 170 → Fin 170 → EReal) (t : BitVec 32) (l : Fin 170 → EReal) : EReal := ∑ c : Fin 170, klR S t l c

/-- The sum of a per-row quantity over block t: rows 4096 t … 4096 t + 4095. -/
def blockSum (f : Fin 524288 → EReal) (t : ℕ) (ht : t < 128) : EReal :=
  ∑ row : Fin 4096, f ⟨4096 * t + row.val, by have := row.isLt; omega⟩
/-- The running total over blocks b, b+1, …, b+j, started from zero at block b. -/
def accum (f : Fin 524288 → EReal) (b : ℕ) : (j : ℕ) → b + j < 128 → EReal
  | 0, h => 0 + blockSum f b h
  | j + 1, h => accum f b j (by omega) + blockSum f (b + (j + 1)) h
/-- The batch mean, clamped below at zero. -/
def mean0 (tot : EReal) : EReal := max (Ideal.div tot wK) 0

end Cert.Spec

end
-- ==== Proof.KFrame.lean ====
/-
  The kernel's run, read as values.

  The grid has 128 points t = 64 · core + inner (core ∈ {0, 1}, inner ∈ 0..63).  At a point the body sees the
  point's blocks of the six inputs — 4096 labels, their 4096 × 170 logits, and the four class tables whole — and
  one [1, 8, 128] output block, the block of the point's core.  From the inputs alone it forms the point's partial
  sum (the sum over the block's 4096 rows of each row's loss); it adds that number, broadcast over the block, to
  what the block holds.  When inner = 0 the block is first set to zero, so a core's block is accumulated from zero
  over the core's 64 consecutive points; it is written back to the [2, 8, 128] result array once, after the core's
  last point (t = 63 and t = 127), at row `core`.

  After the region the host takes entry (0, 0, 0) and entry (1, 0, 0) of the result array — one entry of each core's
  block —, adds them, divides by the batch size 524288 and clamps below at zero: the batch mean `Spec.mean0` of the
  two cores' totals.
-/
import proofs.«418023_j52089363366642_3_alg».proof.Proof.Gen.KernelIdeal.Frame
import proofs.«418023_j52089363366642_3_alg».proof.Proof.Spec
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

/-! ## What one point leaves in the output block -/

section pieces
variable {F : FTy → Type} [FloatOps F]

/-- Offsets (0, 0) and (0, 0, 0) are the zero offsets: a load or store at them of a buffer's own extents is of the
    whole buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A point with inner ≠ 0: the body's one store covers the block, and its payload is the block as it was found
    (`xo6`, loaded whole) plus the point's partial sum, computed from the input blocks loaded whole. -/
theorem out_B (c : Dev nD) (i : grid0.Coords) (arg2 : Memref sig .tc .vmem S4096x1 .i32) (harg2 : arg2.IsWhole) (arg3 : Memref sig .tc .vmem S4096x170 .f32) (harg3 : arg3.IsWhole) (arg4 : Memref sig .tc .vmem S170x170 .bf16) (harg4 : arg4.IsWhole) (arg5 : Memref sig .tc .vmem S170x170 .bf16) (harg5 : arg5.IsWhole) (arg6 : Memref sig .tc .vmem S170x128 .bf16) (harg6 : arg6.IsWhole) (arg7 : Memref sig .tc .vmem S170x128 .bf16) (harg7 : arg7.IsWhole) (arg8 : Memref sig .tc .vmem S1x8x128 .f32) (harg8 : arg8.IsWhole) (hc0 : ¬cond0_0 i)
    (x0 : Vec F S4096x1 .i32) (x1 : Vec F S4096x170 .f32) (x2 : Vec F S170x170 .bf16) (x3 : Vec F S170x170 .bf16) (x4 : Vec F S170x128 .bf16) (x5 : Vec F S170x128 .bf16) (xo6 : Vec F S1x8x128 .f32) :
    out0_B_6 c i arg2 harg2 arg3 harg3 arg4 harg4 arg5 harg5 arg6 harg6 arg7 harg7 arg8 harg8 hc0 x0 x1 x2 x3 x4 x5 xo6
      = k0_pay1 (k0_pay4 x0) (k0_pay6 x0 x2 x3) (k0_pay7 x0 x4 x5) (k0_pay8 x1) (k0_pay9 x1) xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero (S := S1x8x128) hz3]
  simp only [View.readAt_eq_ld, harg2.read_unread, harg3.read_unread, harg4.read_unread, harg5.read_unread, harg6.read_unread, harg7.read_unread, harg8.read_unread,
    View.ld_unit_zero (S := S4096x1) hz2, View.ld_unit_zero (S := S4096x170) hz2, View.ld_unit_zero (S := S170x170) hz2, View.ld_unit_zero (S := S170x128) hz2, View.ld_unit_zero (S := S1x8x128) hz3]

/-- A point with inner = 0: the body stores the zero block, loads it back, and stores it plus the point's partial
    sum. Both stores cover the block, so the later one is what the block holds; the block it was added to is the
    read-back of the first store, the zero block itself. -/
theorem out_A (c : Dev nD) (i : grid0.Coords) (arg2 : Memref sig .tc .vmem S4096x1 .i32) (harg2 : arg2.IsWhole) (arg3 : Memref sig .tc .vmem S4096x170 .f32) (harg3 : arg3.IsWhole) (arg4 : Memref sig .tc .vmem S170x170 .bf16) (harg4 : arg4.IsWhole) (arg5 : Memref sig .tc .vmem S170x170 .bf16) (harg5 : arg5.IsWhole) (arg6 : Memref sig .tc .vmem S170x128 .bf16) (harg6 : arg6.IsWhole) (arg7 : Memref sig .tc .vmem S170x128 .bf16) (harg7 : arg7.IsWhole) (arg8 : Memref sig .tc .vmem S1x8x128 .f32) (harg8 : arg8.IsWhole) (hc0 : cond0_0 i)
    (x0 : Vec F S4096x1 .i32) (x1 : Vec F S4096x170 .f32) (x2 : Vec F S170x170 .bf16) (x3 : Vec F S170x170 .bf16) (x4 : Vec F S170x128 .bf16) (x5 : Vec F S170x128 .bf16) :
    out0_A_6 c i arg2 harg2 arg3 harg3 arg4 harg4 arg5 harg5 arg6 harg6 arg7 harg7 arg8 harg8 hc0 x0 x1 x2 x3 x4 x5
      = k0_pay1 (k0_pay4 x0) (k0_pay6 x0 x2 x3) (k0_pay7 x0 x4 x5) (k0_pay8 x1) (k0_pay9 x1) (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread,
    View.ld_unit_zero (S := S4096x1) hz2, View.ld_unit_zero (S := S4096x170) hz2, View.ld_unit_zero (S := S170x170) hz2, View.ld_unit_zero (S := S170x128) hz2]

end pieces

/-! ## The accumulated block, point by point -/

variable (m : (ℓ : Loc nD τ sig) → Buf (Elt Ideal) ℓ) (ρ : Dev nD → PrngReg)

/-- One point's step on the accumulated block. -/
def step (x0 : Vec Ideal S4096x1 .i32) (x1 : Vec Ideal S4096x170 .f32) (x2 x3 : Vec Ideal S170x170 .bf16) (x4 x5 : Vec Ideal S170x128 .bf16) (acc : Vec Ideal S1x8x128 .f32) : Vec Ideal S1x8x128 .f32 :=
  k0_pay1 (k0_pay4 x0) (k0_pay6 x0 x2 x3) (k0_pay7 x0 x4 x5) (k0_pay8 x1) (k0_pay9 x1) acc

/-- At a core's first point (t ≡ 0 mod 64) the block is the step from the zero block. -/
theorem outsAt_first (c : Dev nD) (t : Fin cfg0.N) (h0 : t.val % 64 = 0) :
    outsAt0 m c t.val t.isLt = step (iblk m c 0 t) (iblk m c 1 t) (iblk m c 2 t) (iblk m c 3 t) (iblk m c 4 t) (iblk m c 5 t) (k0_pay2 (F := Ideal)) := by
  rw [outsAt0_A m c t h0]
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) (iblk m c 5 t)

/-- At every other point it is the step from what the point before left. -/
theorem outsAt_next (c : Dev nD) (t : Fin cfg0.N) (h0 : ¬ t.val % 64 = 0) :
    outsAt0 m c t.val t.isLt = step (iblk m c 0 t) (iblk m c 1 t) (iblk m c 2 t) (iblk m c 3 t) (iblk m c 4 t) (iblk m c 5 t) (outsAt0 m c (t.val - 1) (Nat.lt_of_le_of_lt (Nat.sub_le _ _) t.isLt)) := by
  rw [outsAt0_B m c t h0]
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt))

/-! ## The result array: one block per core, written back after the core's last point -/

theorem h63 : 63 < cfg0.N := by rw [show cfg0.N = 128 from N_0]; decide
theorem h127 : 127 < cfg0.N := by rw [show cfg0.N = 128 from N_0]; decide

/-- The result window is written back at the points ≡ 63 (mod 64): of the 128 points, at 63 and at 127 only. -/
theorem flush_cases (t : Fin cfg0.N) (hf : (cfg0.win 6).flush t = true) : t = ⟨63, h63⟩ ∨ t = ⟨127, h127⟩ := by
  have hN : cfg0.N = 128 := N_0
  have h1 := (flush0_6 t).mp hf
  have h2 := t.isLt
  rcases (by omega : t.val = 63 ∨ t.val = 127) with h | h
  · exact .inl (Fin.ext h)
  · exact .inr (Fin.ext h)

theorem flush63 : (cfg0.win 6).flush ⟨63, h63⟩ = true := (flush0_6 _).mpr rfl
theorem flush127 : (cfg0.win 6).flush ⟨127, h127⟩ = true := (flush0_6 _).mpr rfl

/-- Point 63 writes row 0 of the [2, 8, 128] array and point 127 row 1: on the leading axis the first block ends
    (0 + 1) where the second begins (1), so the two blocks share no element. -/
theorem disj_63_127 : Disjoint ((cfg0.win 6).blk ⟨63, h63⟩).view.set ((cfg0.win 6).blk ⟨127, h127⟩).view.set := by
  show Disjoint ((View.whole main_v33).slice (win0_6.rect ⟨63, h63⟩)).set ((View.whole main_v33).slice (win0_6.rect ⟨127, h127⟩)).set
  rw [View.set_slice_whole, View.set_slice_whole]
  exact Rect.unit_disjoint 0 (.inl (by decide +kernel))

/-- So no two write-backs of the result window meet. -/
theorem blocks_disjoint (t t' : Fin cfg0.N) (hf : (cfg0.win 6).flush t = true) (hf' : (cfg0.win 6).flush t' = true) (hne : t ≠ t') :
    Disjoint ((cfg0.win 6).blk t).view.set ((cfg0.win 6).blk t').view.set := by
  rcases flush_cases t hf with rfl | rfl <;> rcases flush_cases t' hf' with rfl | rfl
  · exact absurd rfl hne
  · exact disj_63_127
  · exact disj_63_127.symm
  · exact absurd rfl hne

/-- The result array as the region leaves it. -/
abbrev resArr (c : Dev nD) : Vec Ideal S2x8x128 .f32 := (dats m 0 c).arrAt 6 cfg0.N

/-- Entry (0, 0, 0) of the result array is entry (0, 0, 0) of core 0's block as its last point (63) left it: that
    point's write-back puts the block at row 0, nothing later overwrites it, and the whole block is moved. -/
theorem arr_core0 (c : Dev nD) : resArr m c (ix3 0 0 0) = outsAt0 m c 63 h63 (ix3 0 0 0) := by
  have h := Dat.arrAt_emb_eq_flushed (dats m 0 c) 6 blocks_disjoint ⟨63, h63⟩ flush63 (ix3 0 0 0 : S1x8x128.Idx)
  have e : ((cfg0.win 6).blk ⟨63, h63⟩).view.emb (ix3 0 0 0 : S1x8x128.Idx) = (ix3 0 0 0 : S2x8x128.Idx) := by
    funext a; apply Fin.ext; fin_cases a <;> decide +kernel
  rw [e] at h
  refine h.trans ?_
  show (cfg0.win 6).cut (grid0.coords ⟨63, h63⟩) ((dats m 0 c).after 6 ⟨63, h63⟩) (ix3 0 0 0 : S1x8x128.Idx) = _
  rw [after0_6]
  rfl

/-- Entry (1, 0, 0) of the result array is entry (0, 0, 0) of core 1's block as its last point (127) left it. -/
theorem arr_core1 (c : Dev nD) : resArr m c (ix3 1 0 0) = outsAt0 m c 127 h127 (ix3 0 0 0) := by
  have h := Dat.arrAt_emb_eq_flushed (dats m 0 c) 6 blocks_disjoint ⟨127, h127⟩ flush127 (ix3 0 0 0 : S1x8x128.Idx)
  have e : ((cfg0.win 6).blk ⟨127, h127⟩).view.emb (ix3 0 0 0 : S1x8x128.Idx) = (ix3 1 0 0 : S2x8x128.Idx) := by
    funext a; apply Fin.ext; fin_cases a <;> decide +kernel
  rw [e] at h
  refine h.trans ?_
  show (cfg0.win 6).cut (grid0.coords ⟨127, h127⟩) ((dats m 0 c).after 6 ⟨127, h127⟩) (ix3 0 0 0 : S1x8x128.Idx) = _
  rw [after0_6]
  rfl

/-! ## The host's lines after the region: the clamped mean of the two cores' totals -/

/-- Both row-major positions are 0: a shape of one element has one position. -/
theorem pos_one (k : S1x1x1.Idx) (j : S_.Idx) : (S1x1x1.rowMajor k).val = (S_.rowMajor j).val := by
  have h1 : (S1x1x1.rowMajor k).val < 1 := lt_of_lt_of_eq (S1x1x1.rowMajor k).isLt (by decide)
  have h2 : (S_.rowMajor j).val < 1 := lt_of_lt_of_eq (S_.rowMajor j).isLt (by decide)
  omega

/-- Entry (k, 0, 0) of a [2, 8, 128] array as the host reads it: the 1 × 1 × 1 slice at offsets (k, 0, 0), reshaped
    to a scalar. -/
theorem slice_scalar (R : Vec Ideal S2x8x128 .f32) (k : Fin 2) (off : Fin 3 → Nat) (hoff : off = ![k.val, 0, 0])
    (h : S2x8x128.Slices off S1x1x1) (j : S_.Idx) :
    shapeCast S_ (extractStridedSlice S1x1x1 off R h) shapeCasts_S1x1x1_S_ j = R (ix3 k 0 0) := by
  subst hoff
  refine (shapeCast_apply _ shapeCasts_S1x1x1_S_ j (ix3 0 0 0) (pos_one _ _)).trans ?_
  refine extractStridedSlice_apply _ R h (ix3 0 0 0) (ix3 k 0 0) fun a => ?_
  match a with
  | ⟨0, _⟩ => rfl
  | ⟨1, _⟩ => rfl
  | ⟨2, _⟩ => rfl

/-- The scalar the host computes from the result array: entries (0, 0, 0) and (1, 0, 0) added, divided by the batch
    size, the maximum taken with zero — `Spec.mean0` of the sum of the two cores' accumulated entries. -/
theorem tail_eq (c : Dev nD) :
    Pipeline.afterTail₀ cfgs (dats m) 0 (V0 m) [hostOps1] c main_v40
      = fun _ => Cert.Spec.mean0 (outsAt0 m c 63 h63 (ix3 0 0 0) + outsAt0 m c 127 h127 (ix3 0 0 0)) := by
  unfold Pipeline.afterTail₀
  show StableHlo.after hostOps1 _ (Proc.devRef .tc main_v40) = _
  after_results
  rw [show Pipeline.withArrays (cfgs 0).spec c (V0 m c) (fun w => (dats m 0 c).arrAt w (cfgs 0).N) (Proc.devRef .tc main_v33) = resArr m c from
    Pipeline.withArrays_arr spec0 launch0.win.arr_inj c _ _ 6]
  funext j
  show max (Ideal.div (shapeCast S_ (extractStridedSlice S1x1x1 ![0, 0, 0] (resArr m c) slices_S2x8x128_S1x1x1_0_0_0) shapeCasts_S1x1x1_S_ j
      + shapeCast S_ (extractStridedSlice S1x1x1 ![1, 0, 0] (resArr m c) slices_S2x8x128_S1x1x1_1_0_0) shapeCasts_S1x1x1_S_ j) Cert.Spec.wK)
    (Ideal.ofBits .f32 0x00000000#32) = _
  rw [slice_scalar (resArr m c) 0 ![0, 0, 0] rfl, slice_scalar (resArr m c) 1 ![1, 0, 0] rfl, arr_core0, arr_core1, Ideal.ofBits_zero_f32]
  rfl

/-- THE RUN: every execution of the program ends with the scalar result at the clamped mean of the two cores'
    totals (each read at entry (0, 0, 0) of the core's block after its last point) and the three arguments as launched:
    the scalar is written by the lines after the region and by nothing else; the logits are a staged input, never
    written; the labels and the similarity matrix bypass the region and no line writes them. -/
theorem run : θ_run (defs (F := Ideal)) (onTc (τ := τ) (main (F := Ideal))) ⟨m, fun _ => 0, ρ⟩ (fun r => ∀ c : Dev nD,
      r.2.mem ((c.tc : Thread nD τ).loc main_v40) = (fun _ => Cert.Spec.mean0 (outsAt0 m c 63 h63 (ix3 0 0 0) + outsAt0 m c 127 h127 (ix3 0 0 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v40 (Pipeline.mem_restRefs_of main_v40 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.KBlocks.lean ====
/-
  What the kernel's input windows hold at a grid point, index by index.

  The batch of 524288 rows is cut into 128 blocks of 4096 rows; at point t the first two windows hold block t of the
  label column and of the logits, so their element (row, k) is the array's element (4096·t + row, k).  The other
  four windows hold, at every point, one whole table each, and the tables are built from the 170 × 170 similarity
  matrix S before the region:
      the soft labels      soft S i k = a · [i = k] + b · S i k / Σ_c S i c,
      the entropies        ent S i    = Σ_c plogp (soft S i c),   plogp p = p log p where p > 0 and 0 elsewhere,
  each stored as a leading part and a remainder.  At the extended reals a change of format is the identity, so the
  leading part is the table itself and the remainder is x − x entry by entry.

  The tables are first written as functions of a variable matrix and read at an index operation by operation: a row
  sum from the zero word is the sum over the row; a vector made a column and repeated along the columns reads its
  row's entry; the identity matrix is the comparison of the row number with the column number (both below 2³², so the
  32-bit words are equal exactly when the numbers are); the two selects around the logarithm give p log p where p is
  positive and 0 elsewhere.  Then each staged array is identified with its table of the similarity matrix as launched,
  and each block with its part of the array.
-/
import proofs.«418023_j52089363366642_3_alg».proof.Proof.Gen.KernelIdeal.Frame
import proofs.«418023_j52089363366642_3_alg».proof.Proof.Spec
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.KB

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

abbrev Lg (c : Dev nD) (r : Fin 524288) (k : Fin 170) : EReal := m ((c.tc : Thread nD τ).loc main_arg0) (ix2 r k)
abbrev Tg (c : Dev nD) (r : Fin 524288) : BitVec 32 := m ((c.tc : Thread nD τ).loc main_arg1) (ix1 r)
abbrev Sm (c : Dev nD) (i k : Fin 170) : EReal := m ((c.tc : Thread nD τ).loc main_arg2) (ix2 i k)

/-- Row `row` of block `t` is global row 4096·t + row. -/
def grow (t : Fin cfg0.N) (row : Fin 4096) : Fin 524288 :=
  ⟨4096 * t.val + row.val, by have := t.isLt; have : cfg0.N = 128 := N_0; have := row.isLt; omega⟩

/-! ## The host tables as functions of the similarity matrix

The operations that build the kernel's tables before the region, as terms over a variable similarity matrix
`a2`, each then read at an index. -/

/-- The row sums Σ_c a2[i, c]. -/
def rowSumT (a2 : FVec Ideal S170x170 .f32) : FVec Ideal S170 .f32 :=
  Host.reduceAdd (F := Ideal) a2 (constant (F := Ideal) S_ .f32 0x00000000#32) reducesTo_S170x170_S170_d1 h_S_

/-- The matrix with every row divided by its sum. -/
def normT (a2 : FVec Ideal S170x170 .f32) : FVec Ideal S170x170 .f32 :=
  Host.divf (F := Ideal) a2 (broadcastInDim S170x170 ![0, 1] bcast_S170x1_S170x170_0_1
    (broadcastInDim S170x1 ![0] bcast_S170_S170x1_0 (rowSumT a2)))

/-- The identity matrix: 1 where the row number equals the column number, else 0. -/
def eyeT : FVec Ideal S170x170 .f32 :=
  uitofp (F := Ideal) .f32 (cmpi .eq (addi (iotaInDim S170x170 32 0)
    (broadcastInDim S170x170 ![] bcast_S_S170x170 (constantI S_ 32 0#32))) (iotaInDim S170x170 32 1))

/-- The soft-label table a · I + b · (normalised similarity). -/
def softT (a2 : FVec Ideal S170x170 .f32) : FVec Ideal S170x170 .f32 :=
  addf (mulf (broadcastInDim S170x170 ![] bcast_S_S170x170 (constant (F := Ideal) S_ .f32 0x3F4CCCCD#32)) eyeT)
    (mulf (broadcastInDim S170x170 ![] bcast_S_S170x170 (constant (F := Ideal) S_ .f32 0x3E4CCCCD#32)) (normT a2))

/-- Where the soft-label table is positive. -/
def posT (a2 : FVec Ideal S170x170 .f32) : IVec S170x170 1 :=
  cmpf .ogt (softT a2) (broadcastInDim S170x170 ![] bcast_S_S170x170 (constant (F := Ideal) S_ .f32 0x00000000#32))

/-- p log p where p is positive (the logarithm taken of 1 elsewhere), 0 elsewhere. -/
def plogpT (a2 : FVec Ideal S170x170 .f32) : FVec Ideal S170x170 .f32 :=
  select (posT a2)
    (mulf (softT a2) (Host.log (F := Ideal) (select (posT a2) (softT a2)
      (broadcastInDim S170x170 ![] bcast_S_S170x170 (id (constant (F := Ideal) S_ .f32 0x3F800000#32))))))
    (broadcastInDim S170x170 ![] bcast_S_S170x170 (id (constant (F := Ideal) S_ .f32 0x00000000#32)))

/-- The per-class entropies Σ_c p log p. -/
def entT (a2 : FVec Ideal S170x170 .f32) : FVec Ideal S170 .f32 :=
  Host.reduceAdd (F := Ideal) (plogpT a2) (constant (F := Ideal) S_ .f32 0x00000000#32) reducesTo_S170x170_S170_d1 h_S_

/-- The entropies repeated along 128 columns. -/
def entB (a2 : FVec Ideal S170x170 .f32) : FVec Ideal S170x128 .f32 :=
  broadcastInDim S170x128 ![0, 1] bcast_S170x1_S170x128_0_1 (broadcastInDim S170x1 ![0] bcast_S170_S170x1_0 (entT a2))

/-- A host sum along the columns of a 170 × 170 matrix, from the zero word: the sum of the row. -/
theorem rowReduce_apply (x : FVec Ideal S170x170 .f32) (i : Fin 170) :
    Host.reduceAdd (F := Ideal) x (constant (F := Ideal) S_ .f32 0x00000000#32) reducesTo_S170x170_S170_d1 h_S_ (ix1 i)
      = ∑ c : Fin 170, x (ix2 i c) := by
  rw [hostReduceAdd_apply,
    Ideal.hostReduceAdd_single reducesTo_S170x170_S170_d1 (by decide : S170x170.Reduces [1] S170)]
  show Ideal.ofBits .f32 0x00000000#32 + _ = _
  rw [Ideal.ofBits_zero_f32, zero_add]
  refine Finset.sum_congr rfl (fun c _ => congrArg x (funext fun a => Fin.ext ?_))
  match a with
  | ⟨0, _⟩ => rfl
  | ⟨1, _⟩ => rfl

/-- A [170] vector made a column and repeated along `n` columns reads its row's entry. -/
theorem colBcast170_apply (v : FVec Ideal S170 .f32) (i k : Fin 170) :
    broadcastInDim S170x170 ![0, 1] bcast_S170x1_S170x170_0_1 (broadcastInDim S170x1 ![0] bcast_S170_S170x1_0 v) (ix2 i k)
      = v (ix1 i) := by
  refine (broadcastInDim_apply _ _ _ (ix2 i k) (ix2 i (0 : Fin 1)) (fun a => ?_)).trans ?_
  · match a with
    | ⟨0, _⟩ => rfl
    | ⟨1, _⟩ => rfl
  · refine broadcastInDim_apply _ _ _ (ix2 i (0 : Fin 1)) (ix1 i) (fun a => ?_)
    match a with
    | ⟨0, _⟩ => rfl
theorem colBcast128_apply (v : FVec Ideal S170 .f32) (i : Fin 170) (j : Fin 128) :
    broadcastInDim S170x128 ![0, 1] bcast_S170x1_S170x128_0_1 (broadcastInDim S170x1 ![0] bcast_S170_S170x1_0 v) (ix2 i j)
      = v (ix1 i) := by
  refine (broadcastInDim_apply _ _ _ (ix2 i j) (ix2 i (0 : Fin 1)) (fun a => ?_)).trans ?_
  · match a with
    | ⟨0, _⟩ => rfl
    | ⟨1, _⟩ => rfl
  · refine broadcastInDim_apply _ _ _ (ix2 i (0 : Fin 1)) (ix1 i) (fun a => ?_)
    match a with
    | ⟨0, _⟩ => rfl

theorem rowSumT_apply (a2 : FVec Ideal S170x170 .f32) (i : Fin 170) :
    rowSumT a2 (ix1 i) = Cert.Spec.rowSum (fun i k => a2 (ix2 i k)) i := rowReduce_apply a2 i

theorem normT_apply (a2 : FVec Ideal S170x170 .f32) (i k : Fin 170) :
    normT a2 (ix2 i k) = Ideal.div (a2 (ix2 i k)) (Cert.Spec.rowSum (fun i k => a2 (ix2 i k)) i) := by
  unfold normT
  rw [hostDivf_apply, colBcast170_apply, rowSumT_apply]

/-- The identity matrix read at (i, k). -/
theorem eyeT_apply (i k : Fin 170) : eyeT (ix2 i k) = if i = k then 1 else 0 := by
  show (((IntOp.cmpi .eq (IntOp.addi (BitVec.ofNat 32 i.val) 0#32) (BitVec.ofNat 32 k.val)).toNat : ℝ) : EReal) = _
  have hi : i.val < 170 := i.isLt
  have hk : k.val < 170 := k.isLt
  by_cases h : i = k
  · subst h
    rw [if_pos rfl]
    have e : IntOp.cmpi .eq (IntOp.addi (BitVec.ofNat 32 i.val) 0#32) (BitVec.ofNat 32 i.val) = 1#1 :=
      IntOp.cmpi_eq.mpr (by simp [IntOp.addi])
    rw [e]
    simp
  · rw [if_neg h]
    have e : IntOp.cmpi .eq (IntOp.addi (BitVec.ofNat 32 i.val) 0#32) (BitVec.ofNat 32 k.val) = 0#1 :=
      eq_zero_of_ne_one (fun h1 => h (Fin.ext (by
        have h2 := congrArg BitVec.toNat (IntOp.cmpi_eq.mp h1)
        simp [IntOp.addi, BitVec.toNat_ofNat] at h2
        omega)))
    rw [e]
    simp

/-- The soft-label table read at (i, k) is the specification's soft label. -/
theorem softT_apply (a2 : FVec Ideal S170x170 .f32) (i k : Fin 170) :
    softT a2 (ix2 i k) = Cert.Spec.soft (fun i k => a2 (ix2 i k)) i k := by
  unfold softT Cert.Spec.soft
  rw [addf_apply, mulf_apply, mulf_apply, broadcastInDim_scalar_apply, broadcastInDim_scalar_apply, eyeT_apply, normT_apply]
  rfl

/-- The two selects around the logarithm, at one element: p log p where p > 0 (there the inner select passes p),
    0 elsewhere (the inner select's 1 is then never used). -/
theorem plogp_word (x : EReal) :
    Scalar.select (Ideal.cmp .ogt x (Ideal.ofBits .f32 0x00000000#32))
      (x * Ideal.log (Scalar.select (Ideal.cmp .ogt x (Ideal.ofBits .f32 0x00000000#32)) x (Ideal.ofBits .f32 0x3F800000#32)))
      (Ideal.ofBits .f32 0x00000000#32) = Cert.Spec.plogp x := by
  rw [Ideal.ofBits_zero_f32]
  unfold Cert.Spec.plogp
  by_cases h : 0 < x
  · have hc : Ideal.cmp .ogt x 0 = 1#1 := by simp [Ideal.cmp, h]
    rw [hc, select_one, select_one, if_pos h]
  · have hc : Ideal.cmp .ogt x 0 = 0#1 := by simp [Ideal.cmp, h]
    rw [hc, select_zero, if_neg h]

theorem plogpT_apply (a2 : FVec Ideal S170x170 .f32) (i k : Fin 170) :
    plogpT a2 (ix2 i k) = Cert.Spec.plogp (softT a2 (ix2 i k)) :=
  plogp_word (softT a2 (ix2 i k))

/-- The entropy vector read at i is the specification's entropy. -/
theorem entT_apply (a2 : FVec Ideal S170x170 .f32) (i : Fin 170) :
    entT a2 (ix1 i) = Cert.Spec.ent (fun i k => a2 (ix2 i k)) i := by
  unfold entT Cert.Spec.ent
  rw [rowReduce_apply]
  exact Finset.sum_congr rfl (fun c _ => by rw [plogpT_apply, softT_apply])

theorem entB_apply (a2 : FVec Ideal S170x170 .f32) (i : Fin 170) (j : Fin 128) :
    entB a2 (ix2 i j) = Cert.Spec.ent (fun i k => a2 (ix2 i k)) i := by
  unfold entB
  rw [colBcast128_apply, entT_apply]

/-- The four tables the kernel's windows stage: the soft labels and entropies narrowed, and what narrowing left. -/
def tab2 (a2 : FVec Ideal S170x170 .f32) : FVec Ideal S170x170 .bf16 := truncf .bf16 (softT a2) bitsLt_bf16_f32
def tab3 (a2 : FVec Ideal S170x170 .f32) : FVec Ideal S170x170 .bf16 :=
  truncf .bf16 (subf (softT a2) (extf .f32 (truncf .bf16 (softT a2) bitsLt_bf16_f32) bitsLt_bf16_f32)) bitsLt_bf16_f32
def tab4 (a2 : FVec Ideal S170x170 .f32) : FVec Ideal S170x128 .bf16 := truncf .bf16 (entB a2) bitsLt_bf16_f32
def tab5 (a2 : FVec Ideal S170x170 .f32) : FVec Ideal S170x128 .bf16 :=
  truncf .bf16 (subf (entB a2) (extf .f32 (truncf .bf16 (entB a2) bitsLt_bf16_f32) bitsLt_bf16_f32)) bitsLt_bf16_f32

theorem tab2_apply (a2 : FVec Ideal S170x170 .f32) (i k : Fin 170) :
    tab2 a2 (ix2 i k) = Cert.Spec.soft (fun i k => a2 (ix2 i k)) i k := softT_apply a2 i k
theorem tab3_apply (a2 : FVec Ideal S170x170 .f32) (i k : Fin 170) :
    tab3 a2 (ix2 i k) = Cert.Spec.soft (fun i k => a2 (ix2 i k)) i k - Cert.Spec.soft (fun i k => a2 (ix2 i k)) i k := by
  show softT a2 (ix2 i k) - softT a2 (ix2 i k) = _
  rw [softT_apply]
theorem tab4_apply (a2 : FVec Ideal S170x170 .f32) (i : Fin 170) (j : Fin 128) :
    tab4 a2 (ix2 i j) = Cert.Spec.ent (fun i k => a2 (ix2 i k)) i := entB_apply a2 i j
theorem tab5_apply (a2 : FVec Ideal S170x170 .f32) (i : Fin 170) (j : Fin 128) :
    tab5 a2 (ix2 i j) = Cert.Spec.ent (fun i k => a2 (ix2 i k)) i - Cert.Spec.ent (fun i k => a2 (ix2 i k)) i := by
  show entB a2 (ix2 i j) - entB a2 (ix2 i j) = _
  rw [entB_apply]

/-! ## The arrays the windows stage, as the region finds them

Windows 0 and 2–5 stage arrays that host operations wrote before the region: the label vector reshaped to a
column, and the four tables. Each is the operations' term over the argument arrays as launched. -/

/-- The label column is the label vector reshaped. -/
theorem V32_eq (c : Dev nD) : (V m c main_v32 : S524288x1.Idx → BitVec 32)
    = shapeCast S524288x1 (m ((c.tc : Thread nD τ).loc main_arg1)) shapeCasts_S524288_S524288x1 := by
  dsimp only [V, V0]
  simp only [hostOps0, hostOps0_1, hostOps0_2, hostOps0_3, hostOps0_4, List.flatten_cons, List.flatten_nil, List.append_nil,
    List.cons_append, List.nil_append]
  after_results
  rfl

/-- The narrowed soft-label table. -/
theorem V24_eq (c : Dev nD) : (V m c main_v24 : S170x170.Idx → EReal) = tab2 (m ((c.tc : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  rfl

/-- What narrowing the soft-label table left. -/
theorem V27_eq (c : Dev nD) : (V m c main_v27 : S170x170.Idx → EReal) = tab3 (m ((c.tc : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  rfl

/-- The narrowed entropy table. -/
theorem V28_eq (c : Dev nD) : (V m c main_v28 : S170x128.Idx → EReal) = tab4 (m ((c.tc : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  rfl

/-- What narrowing the entropy table left. -/
theorem V31_eq (c : Dev nD) : (V m c main_v31 : S170x128.Idx → EReal) = tab5 (m ((c.tc : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  rfl

/-! ## The windows' blocks

A block's element at `y` sits in the window's array, on each axis, at block index × block size + `y`'s coordinate.
Windows 0 and 1 walk down the rows, one block of 4096 rows per grid point; windows 2–5 hold their whole table at
every point. -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- An `[a]` vector reshaped to the column `[a, 1]` reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-- Window 0's block at point `t` holds the labels of rows 4096·t … 4096·t + 4095. -/
theorem blk0 (c : Dev nD) (t : Fin cfg0.N) (row : Fin 4096) :
    (iblk m c 0 t : Vec Ideal S4096x1 .i32) (ix2 row 0) = Tg m c (grow t row) := by
  unfold iblk
  rw [View.read_apply]
  show V m c main_v32 (((cfg0.win 0).blk t).view.emb (ix2 row 0)) = _
  rw [V32_eq]
  obtain ⟨e0, e1⟩ := idx0 t
  have hemb : (((cfg0.win 0).blk t).view.emb (ix2 row (0 : Fin 1)) : S524288x1.Idx) = ix2 (grow t row) (0 : Fin 1) := by
    funext a; apply Fin.ext
    match a with
    | ⟨0, _⟩ => show win0_0.index t (0 : Fin 2) * 4096 + 1 * row.val = 4096 * t.val + row.val; omega
    | ⟨1, _⟩ => show win0_0.index t (1 : Fin 2) * 1 + 1 * 0 = 0; omega
  refine (congrArg (shapeCast S524288x1 (m ((c.tc : Thread nD τ).loc main_arg1)) shapeCasts_S524288_S524288x1) hemb).trans ?_
  exact shapeCast_col_apply _ _ (grow t row) 0

/-- Window 1's block at point `t` holds the logits of those rows. -/
theorem blk1 (c : Dev nD) (t : Fin cfg0.N) (row : Fin 4096) (k : Fin 170) :
    (iblk m c 1 t : Vec Ideal S4096x170 .f32) (ix2 row k) = Lg m c (grow t row) k := by
  unfold iblk
  rw [View.read_apply]
  show V m c main_arg0 (((cfg0.win 1).blk t).view.emb (ix2 row k)) = _
  rw [V_main_arg0]
  obtain ⟨e0, e1⟩ := idx1 t
  show m ((c.tc : Thread nD τ).loc main_arg0) (((cfg0.win 1).blk t).view.emb (ix2 row k))
    = m ((c.tc : Thread nD τ).loc main_arg0) (ix2 (grow t row) k)
  refine congrArg _ (funext fun a => Fin.ext ?_)
  match a with
  | ⟨0, _⟩ => show win0_1.index t (0 : Fin 2) * 4096 + 1 * row.val = 4096 * t.val + row.val; omega
  | ⟨1, _⟩ => show win0_1.index t (1 : Fin 2) * 170 + 1 * k.val = k.val; omega

/-- Window 2 holds the soft-label table at every point. -/
theorem blk2 (c : Dev nD) (t : Fin cfg0.N) (i k : Fin 170) :
    (iblk m c 2 t : Vec Ideal S170x170 .bf16) (ix2 i k) = Cert.Spec.soft (Sm m c) i k := by
  unfold iblk
  rw [View.read_apply]
  show V m c main_v24 (((cfg0.win 2).blk t).view.emb (ix2 i k)) = _
  rw [V24_eq]
  obtain ⟨e0, e1⟩ := idx2 t
  have hemb : (((cfg0.win 2).blk t).view.emb (ix2 i k) : S170x170.Idx) = ix2 i k := by
    funext a; apply Fin.ext
    match a with
    | ⟨0, _⟩ => show win0_2.index t (0 : Fin 2) * 170 + 1 * i.val = i.val; omega
    | ⟨1, _⟩ => show win0_2.index t (1 : Fin 2) * 170 + 1 * k.val = k.val; omega
  refine (congrArg (tab2 (m ((c.tc : Thread nD τ).loc main_arg2))) hemb).trans ?_
  exact tab2_apply _ i k

/-- Window 3 holds what narrowing the soft-label table left: x − x at every entry. -/
theorem blk3 (c : Dev nD) (t : Fin cfg0.N) (i k : Fin 170) :
    (iblk m c 3 t : Vec Ideal S170x170 .bf16) (ix2 i k) = Cert.Spec.soft (Sm m c) i k - Cert.Spec.soft (Sm m c) i k := by
  unfold iblk
  rw [View.read_apply]
  show V m c main_v27 (((cfg0.win 3).blk t).view.emb (ix2 i k)) = _
  rw [V27_eq]
  obtain ⟨e0, e1⟩ := idx3 t
  have hemb : (((cfg0.win 3).blk t).view.emb (ix2 i k) : S170x170.Idx) = ix2 i k := by
    funext a; apply Fin.ext
    match a with
    | ⟨0, _⟩ => show win0_3.index t (0 : Fin 2) * 170 + 1 * i.val = i.val; omega
    | ⟨1, _⟩ => show win0_3.index t (1 : Fin 2) * 170 + 1 * k.val = k.val; omega
  refine (congrArg (tab3 (m ((c.tc : Thread nD τ).loc main_arg2))) hemb).trans ?_
  exact tab3_apply _ i k

/-- Window 4 holds the entropy table, the same in each of its 128 columns. -/
theorem blk4 (c : Dev nD) (t : Fin cfg0.N) (i : Fin 170) (j : Fin 128) :
    (iblk m c 4 t : Vec Ideal S170x128 .bf16) (ix2 i j) = Cert.Spec.ent (Sm m c) i := by
  unfold iblk
  rw [View.read_apply]
  show V m c main_v28 (((cfg0.win 4).blk t).view.emb (ix2 i j)) = _
  rw [V28_eq]
  obtain ⟨e0, e1⟩ := idx4 t
  have hemb : (((cfg0.win 4).blk t).view.emb (ix2 i j) : S170x128.Idx) = ix2 i j := by
    funext a; apply Fin.ext
    match a with
    | ⟨0, _⟩ => show win0_4.index t (0 : Fin 2) * 170 + 1 * i.val = i.val; omega
    | ⟨1, _⟩ => show win0_4.index t (1 : Fin 2) * 128 + 1 * j.val = j.val; omega
  refine (congrArg (tab4 (m ((c.tc : Thread nD τ).loc main_arg2))) hemb).trans ?_
  exact tab4_apply _ i j

/-- Window 5 holds what narrowing the entropy table left: x − x at every entry. -/
theorem blk5 (c : Dev nD) (t : Fin cfg0.N) (i : Fin 170) (j : Fin 128) :
    (iblk m c 5 t : Vec Ideal S170x128 .bf16) (ix2 i j) = Cert.Spec.ent (Sm m c) i - Cert.Spec.ent (Sm m c) i := by
  unfold iblk
  rw [View.read_apply]
  show V m c main_v31 (((cfg0.win 5).blk t).view.emb (ix2 i j)) = _
  rw [V31_eq]
  obtain ⟨e0, e1⟩ := idx5 t
  have hemb : (((cfg0.win 5).blk t).view.emb (ix2 i j) : S170x128.Idx) = ix2 i j := by
    funext a; apply Fin.ext
    match a with
    | ⟨0, _⟩ => show win0_5.index t (0 : Fin 2) * 170 + 1 * i.val = i.val; omega
    | ⟨1, _⟩ => show win0_5.index t (1 : Fin 2) * 128 + 1 * j.val = j.val; omega
  refine (congrArg (tab5 (m ((c.tc : Thread nD τ).loc main_arg2))) hemb).trans ?_
  exact tab5_apply _ i j

end Cert.KernelIdeal.KB

end
-- ==== Proof.KPayload.lean ====
/-
  The soft-label KL loss kernel's body, read one element at a time over the extended reals.

  One grid step holds a block of 4096 rows: their labels (a column of 32-bit words), their logits (170 lanes each),
  and four tables indexed by class — the soft-label rows split as a leading part and a remainder, and the per-class
  entropies split the same way. The body forms each row's one-hot vector from its label (class 0 standing in for the
  ignore label), gathers the row's soft label and entropy as products of the one-hot vector with the tables, takes the
  row's log-softmax (logits minus their maximum, minus the log of the sum of their exponentials), and adds to every
  element of the accumulator block the sum over the rows of
      validity · (entropy − Σ_c soft_c · logsoftmax_c).
  Below, each operation that is not elementwise is read at an index given by coordinates — the label tests as words,
  the column layout forms, the two products against the one-hot rows, the lane maximum and sums, the block sum — and
  the last theorem puts them together: the new block is the old one plus Σ_row rowLoss.
-/
import proofs.«418023_j52089363366642_3_alg».proof.Proof.Gen.KernelIdeal.Skeleton
import proofs.«418023_j52089363366642_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KP

open Cert.KernelIdeal Cert.KernelIdeal.Gen Idealize.ShloMosaic Idealize.ShloMosaic.ValueIdx

/-! ## Words: the label tests -/

/-- The gathering label as a word: the select on "the label is not the ignore label" keeps a real label and puts
    class 0 in place of the ignore label. -/
theorem safe_word (t : BitVec 32) :
    Scalar.select (IntOp.cmpi .ne t 4294967196#32) t 0#32 = Cert.Spec.safe t := by
  unfold Cert.Spec.safe Scalar.select IntOp.cmpi
  by_cases h : t = Cert.Spec.ign
  · subst h; rfl
  · have hb : (t != 4294967196#32) = true := bne_iff_ne.mpr h
    rw [if_neg h]
    show (if BitVec.ofBool (t != 4294967196#32) = 1#1 then t else 0#32) = t
    rw [hb]; rfl

/-- A one-bit "equal" widened to 32 bits and read as a signed integer is 1 where the words agree, else 0. -/
theorem eq_bit_val (a b : BitVec 32) :
    ((((IntOp.cmpi .eq a b).setWidth 32).toInt : ℝ) : EReal) = if a = b then 1 else 0 := by
  by_cases h : a = b
  · subst h
    have hc : IntOp.cmpi .eq a a = 1#1 := by
      show BitVec.ofBool (a == a) = 1#1
      rw [beq_self_eq_true]; rfl
    rw [hc, if_pos rfl]
    have : ((1#1 : BitVec 1).setWidth 32).toInt = 1 := by decide
    rw [this]; simp
  · have hc : IntOp.cmpi .eq a b = 0#1 := by
      show BitVec.ofBool (a == b) = 0#1
      rw [beq_eq_false_iff_ne.mpr h]; rfl
    rw [hc, if_neg h]
    have : ((0#1 : BitVec 1).setWidth 32).toInt = 0 := by decide
    rw [this]; simp

/-- A one-bit "not equal" widened to 32 bits and read as a signed integer is 0 where the words agree, else 1. -/
theorem ne_bit_val (a b : BitVec 32) :
    ((((IntOp.cmpi .ne a b).setWidth 32).toInt : ℝ) : EReal) = if a = b then 0 else 1 := by
  by_cases h : a = b
  · subst h
    have hc : IntOp.cmpi .ne a a = 0#1 := by
      show BitVec.ofBool (a != a) = 0#1
      rw [bne_self_eq_false]; rfl
    rw [hc, if_pos rfl]
    have : ((0#1 : BitVec 1).setWidth 32).toInt = 0 := by decide
    rw [this]; simp
  · have hc : IntOp.cmpi .ne a b = 1#1 := by
      show BitVec.ofBool (a != b) = 1#1
      rw [bne_iff_ne.mpr h]; rfl
    rw [hc, if_neg h]
    have : ((1#1 : BitVec 1).setWidth 32).toInt = 1 := by decide
    rw [this]; simp

/-! ## Layout operations at an index: the column forms -/

section Layout
variable {α : Type}

/-- A column [a, 1] broadcast along the lanes to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one element of a [1, 1, 1] array broadcast to [a, b, c] is read at every index. -/
theorem broadcastTo_111_abc_apply {a b c : ℕ} (v : (⟨3, ![1, 1, 1]⟩ : Shape).Idx → α)
    (h : (⟨3, ![1, 1, 1]⟩ : Shape).Broadcasts ⟨3, ![a, b, c]⟩) (y : (⟨3, ![a, b, c]⟩ : Shape).Idx) :
    broadcastTo ⟨3, ![a, b, c]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

/-- A vector [a] cast to the column [a, 1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one element of a [1, 1] array cast to [1, 1, 1]. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_two, Shape.rowMajor_val_three]
    show 0 * 1 + 0 = (u.val * 1 + v.val) * 1 + w.val
    rw [hu, hv, hw])

end Layout

/-! ## The label column: the validity bit and the one-hot rows -/

section Labels
variable (x0 : Vec Ideal S4096x1 .i32)

/-- The label column passes its identity shape cast unchanged. -/
theorem pay3_eq : k0_pay3 (F := Ideal) x0 = x0 := by
  unfold k0_pay3; exact shapeCast_self _ _

/-- The "labelled" bit of a row: the label compared with the ignore label. -/
theorem pay4_apply (row : Fin 4096) (u : Fin 1) :
    k0_pay4 (F := Ideal) x0 (ix2 row u) = IntOp.cmpi .ne (x0 (ix2 row u)) 4294967196#32 := by
  unfold k0_pay4
  show IntOp.cmpi .ne (k0_pay3 (F := Ideal) x0 (ix2 row u)) 4294967196#32 = _
  rw [pay3_eq]

/-- The one-hot row of a label, read at (row, k): 1 where the lane number k is the gathering label, else 0. -/
theorem pay5_apply (row : Fin 4096) (k : Fin 170) :
    k0_pay5 (F := Ideal) x0 (ix2 row k) = Cert.Spec.hot (x0 (ix2 row (0 : Fin 1))) k := by
  unfold k0_pay5
  show ((((IntOp.cmpi .eq (iota .tc S4096x170 32 [1] iota_S4096x170_d1_w32 (ix2 row k))
      (broadcastTo S4096x170 (select (k0_pay4 (F := Ideal) x0) (k0_pay3 (F := Ideal) x0) (broadcast S4096x1 0#32))
        broadcasts_S4096x1_S4096x170 (ix2 row k))).setWidth 32).toInt : ℝ) : EReal) = _
  rw [eq_bit_val, iota_single_apply, broadcastTo_a1_ab_apply, select_apply, pay4_apply, pay3_eq, broadcast_apply, safe_word]
  rfl

/-- The validity column after widening and conversion: 1 on a labelled row, 0 on an ignored one. -/
theorem valid_apply (row : Fin 4096) (u : Fin 1) :
    (sitofp .f32 (extui 32 (k0_pay4 (F := Ideal) x0) natLt_1_32) : FVec Ideal S4096x1 .f32) (ix2 row u)
      = Cert.Spec.valid (x0 (ix2 row u)) := by
  show ((((k0_pay4 (F := Ideal) x0 (ix2 row u)).setWidth 32).toInt : ℝ) : EReal) = _
  rw [pay4_apply, ne_bit_val]
  rfl

end Labels

/-! ## The gathers: a product with the one-hot rows read at an index

The two contraction records contract the lanes of the left operand with the rows of the right one. For each, the
operand indices at result index (row, c) and contraction coordinate i are (row, i) and (i, c). -/

theorem lhs_g170_0 (i : S4096x170.Idx) (q : dot_S4096x170_S170x170_S4096x170_1_0_0_1_n_n.contr.Idx) :
    (dot_S4096x170_S170x170_S4096x170_1_0_0_1_n_n.lhsIdx i q 0).val = (i 0).val := by
  unfold DotDims.lhsIdx
  rw [dif_neg (show ¬(0 : Fin S4096x170.rank) ∈ dot_S4096x170_S170x170_S4096x170_1_0_0_1_n_n.lhsBatch by decide),
    dif_pos (show (0 : Fin S4096x170.rank) ∈ dot_S4096x170_S170x170_S4096x170_1_0_0_1_n_n.lhsNonContracting by decide)]
  rfl
theorem lhs_g170_1 (i : S4096x170.Idx) (q : dot_S4096x170_S170x170_S4096x170_1_0_0_1_n_n.contr.Idx) :
    (dot_S4096x170_S170x170_S4096x170_1_0_0_1_n_n.lhsIdx i q 1).val = (q ⟨0, by decide⟩).val :=
  dot_S4096x170_S170x170_S4096x170_1_0_0_1_n_n.lhsIdx_val_of_single rfl i q
theorem rhs_g170_0 (i : S4096x170.Idx) (q : dot_S4096x170_S170x170_S4096x170_1_0_0_1_n_n.contr.Idx) :
    (dot_S4096x170_S170x170_S4096x170_1_0_0_1_n_n.rhsIdx i q 0).val = (q ⟨0, by decide⟩).val :=
  dot_S4096x170_S170x170_S4096x170_1_0_0_1_n_n.rhsIdx_val_of_single rfl i q
theorem rhs_g170_1 (i : S4096x170.Idx) (q : dot_S4096x170_S170x170_S4096x170_1_0_0_1_n_n.contr.Idx) :
    (dot_S4096x170_S170x170_S4096x170_1_0_0_1_n_n.rhsIdx i q 1).val = (i 1).val := by
  unfold DotDims.rhsIdx
  rw [dif_neg (show ¬(1 : Fin S170x170.rank) ∈ dot_S4096x170_S170x170_S4096x170_1_0_0_1_n_n.rhsBatch by decide),
    dif_pos (show (1 : Fin S170x170.rank) ∈ dot_S4096x170_S170x170_S4096x170_1_0_0_1_n_n.rhsNonContracting by decide)]
  rfl

/-- A [4096, 170] by [170, 170] product into the zero block, read at (row, c): the sum over the 170 contracted
    positions of left (row, i) times right (i, c). -/
theorem matmul170_apply (A : FVec Ideal S4096x170 .bf16) (B : FVec Ideal S170x170 .bf16) (row : Fin 4096) (c : Fin 170) :
    matmul dot_S4096x170_S170x170_S4096x170_1_0_0_1_n_n none A B (constant (F := Ideal) S4096x170 .f32 0x00000000#32) (ix2 row c)
      = ∑ i : Fin 170, A (ix2 row i) * B (ix2 i c) := by
  simp only [matmul]
  rw [Ideal.matmul_constant_zero_apply,
    ← Equiv.sum_comp (contrEquiv1 dot_S4096x170_S170x170_S4096x170_1_0_0_1_n_n 170 rfl rfl).symm]
  refine Finset.sum_congr rfl fun i _ => ?_
  have hk := contrEquiv1_symm_val dot_S4096x170_S170x170_S4096x170_1_0_0_1_n_n 170 rfl rfl i
  have el : dot_S4096x170_S170x170_S4096x170_1_0_0_1_n_n.lhsIdx (ix2 row c)
      ((contrEquiv1 dot_S4096x170_S170x170_S4096x170_1_0_0_1_n_n 170 rfl rfl).symm i) = ix2 row i :=
    funext fun a => Fin.ext (by
      match a with
      | ⟨0, _⟩ => exact lhs_g170_0 _ _
      | ⟨1, _⟩ => exact (lhs_g170_1 _ _).trans hk)
  have er : dot_S4096x170_S170x170_S4096x170_1_0_0_1_n_n.rhsIdx (ix2 row c)
      ((contrEquiv1 dot_S4096x170_S170x170_S4096x170_1_0_0_1_n_n 170 rfl rfl).symm i) = ix2 i c :=
    funext fun a => Fin.ext (by
      match a with
      | ⟨0, _⟩ => exact (rhs_g170_0 _ _).trans hk
      | ⟨1, _⟩ => exact rhs_g170_1 _ _)
  rw [el, er]

theorem lhs_g128_0 (i : S4096x128.Idx) (q : dot_S4096x170_S170x128_S4096x128_1_0_0_1_n_n.contr.Idx) :
    (dot_S4096x170_S170x128_S4096x128_1_0_0_1_n_n.lhsIdx i q 0).val = (i 0).val := by
  unfold DotDims.lhsIdx
  rw [dif_neg (show ¬(0 : Fin S4096x170.rank) ∈ dot_S4096x170_S170x128_S4096x128_1_0_0_1_n_n.lhsBatch by decide),
    dif_pos (show (0 : Fin S4096x170.rank) ∈ dot_S4096x170_S170x128_S4096x128_1_0_0_1_n_n.lhsNonContracting by decide)]
  rfl
theorem lhs_g128_1 (i : S4096x128.Idx) (q : dot_S4096x170_S170x128_S4096x128_1_0_0_1_n_n.contr.Idx) :
    (dot_S4096x170_S170x128_S4096x128_1_0_0_1_n_n.lhsIdx i q 1).val = (q ⟨0, by decide⟩).val :=
  dot_S4096x170_S170x128_S4096x128_1_0_0_1_n_n.lhsIdx_val_of_single rfl i q
theorem rhs_g128_0 (i : S4096x128.Idx) (q : dot_S4096x170_S170x128_S4096x128_1_0_0_1_n_n.contr.Idx) :
    (dot_S4096x170_S170x128_S4096x128_1_0_0_1_n_n.rhsIdx i q 0).val = (q ⟨0, by decide⟩).val :=
  dot_S4096x170_S170x128_S4096x128_1_0_0_1_n_n.rhsIdx_val_of_single rfl i q
theorem rhs_g128_1 (i : S4096x128.Idx) (q : dot_S4096x170_S170x128_S4096x128_1_0_0_1_n_n.contr.Idx) :
    (dot_S4096x170_S170x128_S4096x128_1_0_0_1_n_n.rhsIdx i q 1).val = (i 1).val := by
  unfold DotDims.rhsIdx
  rw [dif_neg (show ¬(1 : Fin S170x128.rank) ∈ dot_S4096x170_S170x128_S4096x128_1_0_0_1_n_n.rhsBatch by decide),
    dif_pos (show (1 : Fin S170x128.rank) ∈ dot_S4096x170_S170x128_S4096x128_1_0_0_1_n_n.rhsNonContracting by decide)]
  rfl

/-- A [4096, 170] by [170, 128] product into the zero block, read at (row, c). -/
theorem matmul128_apply (A : FVec Ideal S4096x170 .bf16) (B : FVec Ideal S170x128 .bf16) (row : Fin 4096) (c : Fin 128) :
    matmul dot_S4096x170_S170x128_S4096x128_1_0_0_1_n_n none A B (constant (F := Ideal) S4096x128 .f32 0x00000000#32) (ix2 row c)
      = ∑ i : Fin 170, A (ix2 row i) * B (ix2 i c) := by
  simp only [matmul]
  rw [Ideal.matmul_constant_zero_apply,
    ← Equiv.sum_comp (contrEquiv1 dot_S4096x170_S170x128_S4096x128_1_0_0_1_n_n 170 rfl rfl).symm]
  refine Finset.sum_congr rfl fun i _ => ?_
  have hk := contrEquiv1_symm_val dot_S4096x170_S170x128_S4096x128_1_0_0_1_n_n 170 rfl rfl i
  have el : dot_S4096x170_S170x128_S4096x128_1_0_0_1_n_n.lhsIdx (ix2 row c)
      ((contrEquiv1 dot_S4096x170_S170x128_S4096x128_1_0_0_1_n_n 170 rfl rfl).symm i) = ix2 row i :=
    funext fun a => Fin.ext (by
      match a with
      | ⟨0, _⟩ => exact lhs_g128_0 _ _
      | ⟨1, _⟩ => exact (lhs_g128_1 _ _).trans hk)
  have er : dot_S4096x170_S170x128_S4096x128_1_0_0_1_n_n.rhsIdx (ix2 row c)
      ((contrEquiv1 dot_S4096x170_S170x128_S4096x128_1_0_0_1_n_n 170 rfl rfl).symm i) = ix2 i c :=
    funext fun a => Fin.ext (by
      match a with
      | ⟨0, _⟩ => exact (rhs_g128_0 _ _).trans hk
      | ⟨1, _⟩ => exact rhs_g128_1 _ _)
  rw [el, er]

/-! ## The gathered soft-label rows and entropies -/

section Gathers
variable (x0 : Vec Ideal S4096x1 .i32)

/-- The gathered soft-label row at (row, c): the one-hot row of the label against the leading table plus the same
    against the remainder table. -/
theorem pay6_apply (x2 x3 : Vec Ideal S170x170 .bf16) (row : Fin 4096) (c : Fin 170) :
    k0_pay6 (F := Ideal) x0 x2 x3 (ix2 row c)
      = (∑ i : Fin 170, Cert.Spec.hot (x0 (ix2 row (0 : Fin 1))) i * x2 (ix2 i c))
        + (∑ i : Fin 170, Cert.Spec.hot (x0 (ix2 row (0 : Fin 1))) i * x3 (ix2 i c)) := by
  unfold k0_pay6
  refine (addf_apply _ _ (ix2 row c)).trans ?_
  rw [shapeCast_self, shapeCast_self, matmul170_apply, matmul170_apply]
  simp only [pay5_apply]

/-- The gathered entropy of a row: lane 0 of the one-hot row against the two entropy tables. -/
theorem pay7_apply (x4 x5 : Vec Ideal S170x128 .bf16) (row : Fin 4096) (u : Fin 1) :
    k0_pay7 (F := Ideal) x0 x4 x5 (ix2 row u)
      = (∑ i : Fin 170, Cert.Spec.hot (x0 (ix2 row (0 : Fin 1))) i * x4 (ix2 i (0 : Fin 128)))
        + (∑ i : Fin 170, Cert.Spec.hot (x0 (ix2 row (0 : Fin 1))) i * x5 (ix2 i (0 : Fin 128))) := by
  unfold k0_pay7
  refine (slice2_axis1_apply 0 _ slices_S4096x128_o0_0_S4096x1 row u (0 : Fin 128)
    (by have := u.isLt; show 0 = 0 + u.val; omega)).trans ?_
  refine (addf_apply _ _ (ix2 row (0 : Fin 128))).trans ?_
  rw [shapeCast_self, shapeCast_self, matmul128_apply, matmul128_apply]
  simp only [pay5_apply]

end Gathers

/-! ## Lane reductions of a [4096, 170] block and the column sum of a [4096, 1] block -/

/-- The row maximum: the fold of max from −∞ over the row's 170 lanes. -/
theorem rowmax_apply (x1 : FVec Ideal S4096x170 .f32) (row : Fin 4096) :
    multiReduction (F := Ideal) .maximumf [1] S4096 x1 0xFF800000#32 reduces_S4096x170_S4096 (.inl rfl) rfl (ix1 row)
      = Cert.Spec.rmax (fun k => x1 (ix2 row k)) := by
  refine (Ideal.multiReduction_maximumf_single x1 0xFF800000#32 reduces_S4096x170_S4096 (.inl rfl) rfl (ix1 row)).trans ?_
  have hf : (x1 ∘ reduces_S4096x170_S4096.lift (ix1 row)) = fun k : Fin 170 => x1 (ix2 row k) :=
    funext fun k => congrArg x1 (funext fun a => Fin.ext (by
      match a with
      | ⟨0, _⟩ => rfl
      | ⟨1, _⟩ => rfl))
  rw [hf]
  rfl

/-- A lane sum: the sum over the row's 170 lanes. -/
theorem rowsum_apply (v : FVec Ideal S4096x170 .f32) (row : Fin 4096) :
    multiReduction (F := Ideal) .add [1] S4096 v 0x00000000#32 reduces_S4096x170_S4096 (.inl rfl) rfl (ix1 row)
      = ∑ k : Fin 170, v (ix2 row k) := by
  refine (Ideal.multiReduction_add_single v 0x00000000#32 reduces_S4096x170_S4096 (.inl rfl) rfl (ix1 row)).trans ?_
  refine Finset.sum_congr rfl fun k _ => congrArg v (funext fun a => Fin.ext (by
    match a with
    | ⟨0, _⟩ => rfl
    | ⟨1, _⟩ => rfl))

/-- The block sum: the sum of a column over its 4096 rows. -/
theorem colsum_apply (v : FVec Ideal S4096x1 .f32) (u : Fin 1) :
    multiReduction (F := Ideal) .add [0] S1 v 0x00000000#32 reduces_S4096x1_S1 (.inl rfl) rfl (ix1 u)
      = ∑ r : Fin 4096, v (ix2 r (0 : Fin 1)) := by
  refine (Ideal.multiReduction_add_single v 0x00000000#32 reduces_S4096x1_S1 (.inl rfl) rfl (ix1 u)).trans ?_
  refine Finset.sum_congr rfl fun r _ => congrArg v (funext fun a => Fin.ext (by
    match a with
    | ⟨0, _⟩ => rfl
    | ⟨1, _⟩ => have := u.isLt; show u.val = 0; omega))

/-! ## The shifted logits and their exponentials -/

/-- The logits minus their row maximum. -/
theorem pay8_apply (x1 : Vec Ideal S4096x170 .f32) (row : Fin 4096) (k : Fin 170) :
    k0_pay8 (F := Ideal) x1 (ix2 row k) = x1 (ix2 row k) - Cert.Spec.rmax (fun k => x1 (ix2 row k)) := by
  unfold k0_pay8
  refine (subf_apply _ _ (ix2 row k)).trans ?_
  rw [broadcastTo_a1_ab_apply, shapeCast_a_a1_apply, rowmax_apply]

/-- The exponential of the shifted logits. -/
theorem pay9_apply (x1 : Vec Ideal S4096x170 .f32) (row : Fin 4096) (k : Fin 170) :
    k0_pay9 (F := Ideal) x1 (ix2 row k)
      = Ideal.exp (x1 (ix2 row k) - Cert.Spec.rmax (fun k => x1 (ix2 row k))) := by
  unfold k0_pay9
  show Ideal.exp (k0_pay8 (F := Ideal) x1 (ix2 row k)) = _
  rw [pay8_apply]

/-! ## The block's update read at an index -/

/-- The block a half starts from: the zero word broadcast, the extended real 0 everywhere. -/
theorem pay2_apply (y : S1x8x128.Idx) : k0_pay2 (F := Ideal) y = 0 := by
  unfold k0_pay2
  show Ideal.ofBits .f32 0x00000000#32 = 0
  exact Ideal.ofBits_zero_f32

/-- The update over any five operand blocks: every element of the new block is the old element plus the sum over
    the 4096 rows of  validity · (entropy − Σ_k soft_k · (shifted_k − log Σ_k' exp_k')). -/
theorem pay1_apply (v6 : IVec S4096x1 1) (v21 : FVec Ideal S4096x170 .f32) (v29 : FVec Ideal S4096x1 .f32)
    (v34 v35 : FVec Ideal S4096x170 .f32) (acc : Vec Ideal S1x8x128 .f32) (y : S1x8x128.Idx) :
    k0_pay1 (F := Ideal) v6 v21 v29 v34 v35 acc y
      = acc y + ∑ r : Fin 4096,
          (sitofp .f32 (extui 32 v6 natLt_1_32) : FVec Ideal S4096x1 .f32) (ix2 r (0 : Fin 1))
            * (v29 (ix2 r (0 : Fin 1))
                - ∑ k : Fin 170, v21 (ix2 r k) * (v34 (ix2 r k) - Ideal.log (∑ k' : Fin 170, v35 (ix2 r k')))) := by
  unfold k0_pay1
  refine (addf_apply _ _ y).trans ?_
  rw [shapeCast_self, broadcastTo_111_abc_apply, shapeCast_11_111_apply, shapeCast_a_a1_apply, colsum_apply]
  refine congrArg (acc y + ·) (Finset.sum_congr rfl fun r _ => ?_)
  refine (mulf_apply _ _ (ix2 r (0 : Fin 1))).trans ?_
  refine congrArg (_ * ·) ?_
  refine (subf_apply _ _ (ix2 r (0 : Fin 1))).trans ?_
  refine congrArg (v29 (ix2 r (0 : Fin 1)) - ·) ?_
  rw [shapeCast_a_a1_apply, rowsum_apply]
  refine Finset.sum_congr rfl fun k _ => ?_
  refine (mulf_apply _ _ (ix2 r k)).trans ?_
  refine congrArg (v21 (ix2 r k) * ·) ?_
  refine (subf_apply _ _ (ix2 r k)).trans ?_
  refine congrArg (v34 (ix2 r k) - ·) ?_
  rw [broadcastTo_a1_ab_apply]
  show Ideal.log (shapeCast S4096x1 _ shapeCasts_S4096_S4096x1 (ix2 r (0 : Fin 1))) = _
  rw [shapeCast_a_a1_apply, rowsum_apply]

/-- THE STEP: over the loaded blocks — labels x0, logits x1, the soft-label tables x2 (leading part) and x3
    (remainder), the entropy tables x4 and x5 — every element of the new accumulator block is the old element plus
    the sum over the block's 4096 rows of the row's loss gathered from the tables. -/
theorem step_apply (x0 : Vec Ideal S4096x1 .i32) (x1 : Vec Ideal S4096x170 .f32) (x2 x3 : Vec Ideal S170x170 .bf16)
    (x4 x5 : Vec Ideal S170x128 .bf16) (acc : Vec Ideal S1x8x128 .f32) (y : S1x8x128.Idx) :
    k0_pay1 (k0_pay4 x0) (k0_pay6 x0 x2 x3) (k0_pay7 x0 x4 x5) (k0_pay8 x1) (k0_pay9 x1) acc y
      = acc y + ∑ row : Fin 4096, Cert.Spec.rowLoss (x0 (ix2 row 0)) (fun k => x1 (ix2 row k))
          (fun i k => x2 (ix2 i k)) (fun i k => x3 (ix2 i k)) (fun i => x4 (ix2 i 0)) (fun i => x5 (ix2 i 0)) := by
  rw [pay1_apply]
  refine congrArg (acc y + ·) (Finset.sum_congr rfl fun r _ => ?_)
  rw [valid_apply, pay7_apply]
  simp only [pay6_apply, pay8_apply, pay9_apply]
  unfold Cert.Spec.rowLoss Cert.Spec.lsm
  rfl

end Cert.KernelIdeal.KP

end
-- ==== Proof.Totals.lean ====
/-
  Summing a per-row quantity over the batch block by block.

  The batch of 524288 = 128 · 4096 rows is cut into 128 blocks of 4096 consecutive rows. Two running totals, each
  started from zero, take blocks 0..63 and blocks 64..127; their sum is the sum over every row. Sums over the
  extended reals are finite sums in a commutative monoid, so regrouping them needs no finiteness.
-/
import proofs.«418023_j52089363366642_3_alg».proof.Proof.Spec
import Mathlib.Algebra.BigOperators.Fin
import Mathlib.Data.Fintype.BigOperators
import Mathlib.Logic.Equiv.Fin.Basic

noncomputable section

namespace Cert.Spec

/-- A block's sum depends on the block's number only. -/
theorem blockSum_congr (f : Fin 524288 → EReal) {t t' : ℕ} (e : t = t') (h : t < 128) (h' : t' < 128) :
    blockSum f t h = blockSum f t' h' := by
  subst e; rfl

/-- A sum over all rows is the sum over blocks of the sums over a block's rows: row 4096 t + row of block t. -/
theorem sum_rows_blocks (f : Fin 524288 → EReal) :
    ∑ r : Fin 524288, f r = ∑ t : Fin 128, blockSum f t.val t.isLt := by
  have e : ∑ x : Fin 128 × Fin 4096, f ⟨4096 * x.1.val + x.2.val, by have := x.1.isLt; have := x.2.isLt; omega⟩
      = ∑ r : Fin (128 * 4096), f r :=
    Fintype.sum_equiv (finProdFinEquiv (m := 128) (n := 4096)) _ _ (fun x => congrArg f (Fin.ext (by
      show 4096 * x.1.val + x.2.val = x.2.val + 4096 * x.1.val
      omega)))
  refine e.symm.trans ?_
  rw [Fintype.sum_prod_type]
  unfold blockSum
  exact Finset.sum_congr rfl fun x _ => Finset.sum_congr rfl fun y _ => rfl

/-- A sum over the 128 blocks is the sum over the first 64 plus the sum over the last 64. -/
theorem sum_blocks_halves (g : Fin 128 → EReal) :
    ∑ t : Fin 128, g t = (∑ i : Fin 64, g ⟨i.val, by have := i.isLt; omega⟩) + ∑ i : Fin 64, g ⟨64 + i.val, by have := i.isLt; omega⟩ :=
  Fin.sum_univ_add (a := 64) (b := 64) g

attribute [local irreducible] blockSum

/-- The running total after blocks b, …, b + j is the sum of those j + 1 block sums. -/
theorem accum_eq_sum (f : Fin 524288 → EReal) (b : ℕ) : ∀ (j : ℕ) (h : b + j < 128),
    accum f b j h = ∑ i : Fin (j + 1), blockSum f (b + i.val) (by have := i.isLt; omega)
  | 0, h => by
    rw [Fin.sum_univ_one]
    show 0 + blockSum f b h = _
    rw [zero_add]
    exact blockSum_congr f (Nat.add_zero b).symm _ _
  | j + 1, h => by
    rw [Fin.sum_univ_castSucc]
    show accum f b j _ + blockSum f (b + (j + 1)) h = _
    rw [accum_eq_sum f b j]
    exact congrArg₂ (· + ·) (Finset.sum_congr rfl fun i _ => blockSum_congr f rfl _ _) (blockSum_congr f rfl _ _)

/-- The two half totals add up to the sum over every row. -/
theorem accum_total (f : Fin 524288 → EReal) :
    accum f 0 63 (by decide) + accum f 64 63 (by decide) = ∑ r : Fin 524288, f r := by
  rw [accum_eq_sum, accum_eq_sum, sum_rows_blocks, sum_blocks_halves (fun t => blockSum f t.val t.isLt)]
  exact congrArg₂ (· + ·) (Finset.sum_congr rfl fun i _ => blockSum_congr f (Nat.zero_add _) _ _)
    (Finset.sum_congr rfl fun i _ => blockSum_congr f rfl _ _)

end Cert.Spec

end
-- ==== Proof.KAssemble.lean ====
/-
  The kernel's two accumulated totals are the sum of the table arrangement's row losses over the whole batch.

  After the point t = 64·core + j (j = 0..63) the output block of that core holds, at every entry, the running total
  of the block sums of blocks 64·core, …, 64·core + j: at j = 0 the block is zero plus the point's partial sum, and
  each later point adds its own. A point's partial sum is the sum over the point's 4096 rows of the row loss
  gathered from the four class tables, and the tables are the soft-label table, its remainder x − x, the entropy
  table and its remainder; so the partial sum is the block sum of `Spec.rowK` over the point's rows, and the two
  cores' final totals add up to the sum over all 524288 rows.
-/
import proofs.«418023_j52089363366642_3_alg».proof.Proof.KFrame
import proofs.«418023_j52089363366642_3_alg».proof.Proof.KBlocks
import proofs.«418023_j52089363366642_3_alg».proof.Proof.KPayload
import proofs.«418023_j52089363366642_3_alg».proof.Proof.Totals

noncomputable section

namespace Cert.KernelIdeal.KA

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The table arrangement's loss of global row r, from the three argument arrays. -/
def fK (c : Dev nD) (r : Fin 524288) : EReal := Cert.Spec.rowK (KB.Sm m c) (KB.Tg m c r) (KB.Lg m c r)

theorem lt128 (t : Fin cfg0.N) : t.val < 128 := lt_of_lt_of_eq t.isLt N_0

/-- One point's step adds, at every entry of the block, the block sum of the row losses of the point's rows. -/
theorem step_blockSum (c : Dev nD) (t : Fin cfg0.N) (acc : Vec Ideal S1x8x128 .f32) (y : S1x8x128.Idx) :
    KV.step (iblk m c 0 t) (iblk m c 1 t) (iblk m c 2 t) (iblk m c 3 t) (iblk m c 4 t) (iblk m c 5 t) acc y
      = acc y + Cert.Spec.blockSum (fK m c) t.val (lt128 t) := by
  refine (KP.step_apply (iblk m c 0 t) (iblk m c 1 t) (iblk m c 2 t) (iblk m c 3 t) (iblk m c 4 t) (iblk m c 5 t) acc y).trans ?_
  refine congrArg (acc y + ·) ?_
  unfold Cert.Spec.blockSum
  refine Finset.sum_congr rfl fun row _ => ?_
  have e0 := KB.blk0 m c t row
  have e1 : (fun k => (iblk m c 1 t : Vec Ideal S4096x170 .f32) (ix2 row k)) = KB.Lg m c (KB.grow t row) :=
    funext fun k => KB.blk1 m c t row k
  have e2 : (fun i k => (iblk m c 2 t : Vec Ideal S170x170 .bf16) (ix2 i k)) = Cert.Spec.soft (KB.Sm m c) :=
    funext fun i => funext fun k => KB.blk2 m c t i k
  have e3 : (fun i k => (iblk m c 3 t : Vec Ideal S170x170 .bf16) (ix2 i k))
      = fun i k => Cert.Spec.soft (KB.Sm m c) i k - Cert.Spec.soft (KB.Sm m c) i k :=
    funext fun i => funext fun k => KB.blk3 m c t i k
  have e4 : (fun i => (iblk m c 4 t : Vec Ideal S170x128 .bf16) (ix2 i 0)) = Cert.Spec.ent (KB.Sm m c) :=
    funext fun i => KB.blk4 m c t i 0
  have e5 : (fun i => (iblk m c 5 t : Vec Ideal S170x128 .bf16) (ix2 i 0))
      = fun i => Cert.Spec.ent (KB.Sm m c) i - Cert.Spec.ent (KB.Sm m c) i :=
    funext fun i => KB.blk5 m c t i 0
  rw [e0, e1, e2, e3, e4, e5]
  rfl

/-- After the point 64·core + j the core's block holds the running total of the block sums b, …, b + j (b = 64·core). -/
theorem outsAt_accum (c : Dev nD) (b : ℕ) (hb : b % 64 = 0) : ∀ (j : ℕ) (hj : j < 64) (t : Fin cfg0.N) (ht : t.val = b + j)
    (y : S1x8x128.Idx), outsAt0 m c t.val t.isLt y = Cert.Spec.accum (fK m c) b j (by have := lt128 t; omega)
  | 0, _, t, ht, y => by
    have h0 : t.val % 64 = 0 := by omega
    rw [KV.outsAt_first m c t h0, step_blockSum, KP.pay2_apply]
    show 0 + Cert.Spec.blockSum (fK m c) t.val _ = 0 + Cert.Spec.blockSum (fK m c) b _
    exact congrArg (0 + ·) (Cert.Spec.blockSum_congr _ (by omega) _ _)
  | j + 1, hj, t, ht, y => by
    have h0 : ¬ t.val % 64 = 0 := by omega
    rw [KV.outsAt_next m c t h0, step_blockSum]
    have ih := outsAt_accum c b hb j (by omega) ⟨t.val - 1, Nat.lt_of_le_of_lt (Nat.sub_le _ _) t.isLt⟩ (by show t.val - 1 = b + j; omega) y
    show outsAt0 m c (t.val - 1) _ y + Cert.Spec.blockSum (fK m c) t.val _
      = Cert.Spec.accum (fK m c) b j _ + Cert.Spec.blockSum (fK m c) (b + (j + 1)) _
    exact congrArg₂ (· + ·) ih (Cert.Spec.blockSum_congr _ ht _ _)

theorem h63 : 63 < cfg0.N := by rw [show cfg0.N = 128 from N_0]; decide
theorem h127 : 127 < cfg0.N := by rw [show cfg0.N = 128 from N_0]; decide

/-- The two cores' final totals add up to the sum of the row losses over the whole batch. -/
theorem kernel_total (c : Dev nD) (y y' : S1x8x128.Idx) :
    outsAt0 m c 63 h63 y + outsAt0 m c 127 h127 y' = ∑ r : Fin 524288, fK m c r := by
  rw [outsAt_accum m c 0 rfl 63 (by decide) ⟨63, h63⟩ rfl y, outsAt_accum m c 64 rfl 63 (by decide) ⟨127, h127⟩ rfl y']
  exact Cert.Spec.accum_total _

end Cert.KernelIdeal.KA

end
-- ==== Proof.SpecMath.lean ====
/-
  The row identity: the table arrangement of a row's loss equals the direct one.

  A labelled row with label class j has soft label p_c = soft S j c, a nonnegative REAL for every c (the
  similarity row's sum cannot vanish: were it 0, either some entry is ≤ 0 and its quotient by 0 is −∞, which would
  make a soft label −∞ < 0, or every entry is positive and so is the sum).  Its log-softmax values are real too
  (the maximum of finitely many reals is real, the exponentials are positive reals, so is their sum, and its
  logarithm is real).  The one-hot product Σ_k hot_k · x_k picks x_j out of ANY family x (0 · x = 0 on the extended
  reals), a real plus its own remainder x − x is the real again, and over the reals
      Σ_c [p_c > 0] p_c log p_c − Σ_c p_c λ_c = Σ_c [p_c > 0] p_c (log p_c − λ_c)
  term by term, a class with p_c = 0 contributing 0 on both sides.  On an ignored row both arrangements are 0.
-/
import proofs.«418023_j52089363366642_3_alg».proof.Proof.Spec

noncomputable section

namespace Cert.Spec

open Idealize.ShloMosaic

/-! ### The three literal words -/

/-- The start value of a row maximum is −∞. -/
theorem wNegInf_eq : wNegInf = ⊥ := by
  simp [Ideal.ofBits, Ideal.ieee]

/-- The weight b is the positive real 13421773 · 2⁻²⁶. -/
theorem wB_real : ∃ b : ℝ, 0 < b ∧ wB = (b : EReal) := by
  refine ⟨(13421773 : ℝ) * (2 : ℝ) ^ (-26 : Int), by positivity, ?_⟩
  simp [Ideal.ofBits, Ideal.ieee, -EReal.coe_mul]

/-- The weight a is the real 13421773 · 2⁻²⁴. -/
theorem wA_real : ∃ a : ℝ, wA = (a : EReal) := by
  refine ⟨(13421773 : ℝ) * (2 : ℝ) ^ (-24 : Int), ?_⟩
  simp [Ideal.ofBits, Ideal.ieee, -EReal.coe_mul]

/-! ### Reals inside the extended reals -/

/-- A finite sum of reals, taken in the extended reals, is the real sum. -/
theorem sum_coe (s : Finset (Fin 170)) (f : Fin 170 → ℝ) :
    ∑ i ∈ s, (f i : EReal) = ((∑ i ∈ s, f i : ℝ) : EReal) := by
  induction s using Finset.induction_on with
  | empty => simp
  | insert a s ha ih => rw [Finset.sum_insert ha, Finset.sum_insert ha, ih, EReal.coe_add]

/-- A sum of extended reals each of which is a given real is that real sum. -/
theorem sum_eq_coe (x : Fin 170 → EReal) (f : Fin 170 → ℝ) (h : ∀ c, x c = (f c : EReal)) :
    ∑ c, x c = ((∑ c, f c : ℝ) : EReal) := by
  rw [← sum_coe]; exact Finset.sum_congr rfl (fun c _ => h c)

/-- An indicator is real. -/
theorem ind_coe (P : Prop) [Decidable P] :
    (if P then (1 : EReal) else 0) = (((if P then 1 else 0 : ℝ)) : EReal) := by
  split_ifs <;> simp

/-- A nonpositive number divided by zero is −∞. -/
theorem div_zero_of_nonpos {x : EReal} (hx : x ≤ 0) : Ideal.div x 0 = ⊥ := by
  simp [Ideal.div, not_lt.2 hx]

/-- A real plus its own remainder x − x is the real again. -/
theorem add_sub_self_coe (x : ℝ) : (x : EReal) + ((x : EReal) - (x : EReal)) = (x : EReal) := by
  rw [← EReal.coe_sub, ← EReal.coe_add, sub_self, add_zero]

/-! ### The soft labels are nonnegative reals -/

/-- The sum of a similarity row of reals, as a real. -/
theorem rowSum_coe (S : Fin 170 → Fin 170 → EReal) (s : Fin 170 → Fin 170 → ℝ)
    (hs : ∀ i c, S i c = (s i c : EReal)) (i : Fin 170) : rowSum S i = ((∑ c, s i c : ℝ) : EReal) :=
  sum_eq_coe _ _ (hs i)

/-- Where every soft label is ≥ 0, no similarity row sums to zero. -/
theorem rowSum_ne_zero (S : Fin 170 → Fin 170 → EReal) (s : Fin 170 → Fin 170 → ℝ)
    (hs : ∀ i c, S i c = (s i c : EReal)) (hpos : ∀ i c, 0 ≤ soft S i c) (i : Fin 170) :
    (∑ c, s i c) ≠ 0 := by
  intro h0
  obtain ⟨b, hb0, hb⟩ := wB_real
  have hex : ∃ c, s i c ≤ 0 := by
    by_contra hall
    have hall' : ∀ c, 0 < s i c := fun c => not_le.1 (fun h => hall ⟨c, h⟩)
    have hlt : 0 < ∑ c, s i c := Finset.sum_pos (fun c _ => hall' c) ⟨i, Finset.mem_univ i⟩
    exact absurd h0 hlt.ne'
  obtain ⟨c, hc⟩ := hex
  have hbot : soft S i c = ⊥ := by
    unfold soft
    rw [rowSum_coe S s hs i, h0, EReal.coe_zero, hs i c, div_zero_of_nonpos (EReal.coe_nonpos.2 hc), hb,
      EReal.coe_mul_bot_of_pos hb0, EReal.add_bot]
  have h := hpos i c
  rw [hbot] at h
  exact absurd h (not_le.2 EReal.bot_lt_zero)

/-- Every soft label is a nonnegative real. -/
theorem soft_real (S : Fin 170 → Fin 170 → EReal) (hS : ∀ i c, ∃ x : ℝ, S i c = (x : EReal))
    (hpos : ∀ i c, 0 ≤ soft S i c) (i c : Fin 170) : ∃ p : ℝ, 0 ≤ p ∧ soft S i c = (p : EReal) := by
  choose s hs using hS
  obtain ⟨a, ha⟩ := wA_real
  obtain ⟨b, _, hb⟩ := wB_real
  have hne := rowSum_ne_zero S s hs hpos i
  have hval : soft S i c
      = ((a * (if i = c then 1 else 0) + b * (s i c * (1 / ∑ c', s i c')) : ℝ) : EReal) := by
    unfold soft
    rw [rowSum_coe S s hs i, Ideal.div_coe hne, hs i c, ha, hb, ind_coe, ← EReal.coe_mul, ← EReal.coe_mul,
      ← EReal.coe_mul, ← EReal.coe_add]
  refine ⟨_, ?_, hval⟩
  have h := hpos i c
  rw [hval] at h
  exact EReal.coe_nonneg.1 h

/-- p log p at a real. -/
theorem plogp_coe (p : ℝ) : plogp (p : EReal) = ((if 0 < p then p * Real.log p else 0 : ℝ) : EReal) := by
  unfold plogp
  by_cases hp : 0 < p
  · rw [if_pos (EReal.coe_pos.2 hp), if_pos hp, Ideal.log_coe, if_neg (not_le.2 hp), ← EReal.coe_mul]
  · rw [if_neg (fun h => hp (EReal.coe_pos.1 h)), if_neg hp, EReal.coe_zero]

/-! ### The log-softmax is real -/

/-- The maximum of a row of reals is real. -/
theorem rmax_real (l : Fin 170 → EReal) (hl : ∀ c, ∃ x : ℝ, l c = (x : EReal)) :
    ∃ m : ℝ, rmax l = (m : EReal) := by
  choose x hx using hl
  have hbot : rmax l ≠ ⊥ := by
    have h : l 0 ≤ rmax l := (Finset.le_fold_max (l 0)).2 (Or.inr ⟨0, Finset.mem_univ _, le_rfl⟩)
    intro hb
    rw [hb, hx 0] at h
    exact absurd h (not_le.2 (EReal.bot_lt_coe _))
  have htop : rmax l ≠ ⊤ := by
    have h : rmax l < ⊤ := by
      refine (Finset.fold_max_lt ⊤).2 ⟨?_, fun c _ => ?_⟩
      · rw [wNegInf_eq]; exact bot_lt_top
      · rw [hx c]; exact EReal.coe_lt_top _
    exact h.ne
  exact ⟨(rmax l).toReal, (EReal.coe_toReal htop hbot).symm⟩

/-- The log-softmax of a row of reals is real. -/
theorem lsm_real (l : Fin 170 → EReal) (hl : ∀ c, ∃ x : ℝ, l c = (x : EReal)) (c : Fin 170) :
    ∃ lam : ℝ, lsm l c = (lam : EReal) := by
  obtain ⟨m, hm⟩ := rmax_real l hl
  choose x hx using hl
  have hterm : ∀ c', Ideal.exp (l c' - rmax l) = ((Real.exp (x c' - m) : ℝ) : EReal) := by
    intro c'
    rw [hx c', hm, ← EReal.coe_sub, Ideal.exp_coe]
  have hZ : 0 < ∑ c', Real.exp (x c' - m) :=
    Finset.sum_pos (fun c' _ => Real.exp_pos _) ⟨c, Finset.mem_univ c⟩
  refine ⟨(x c - m) - Real.log (∑ c', Real.exp (x c' - m)), ?_⟩
  unfold lsm
  rw [sum_eq_coe _ _ hterm, Ideal.log_coe, if_neg (not_le.2 hZ), hx c, hm, ← EReal.coe_sub, ← EReal.coe_sub]

/-! ### The one-hot product -/

/-- A label in range other than the ignore label is its own gathering label. -/
theorem safe_of_ne {t : BitVec 32} (h : t ≠ ign) : safe t = t := by
  unfold safe; rw [if_neg h]

/-- The class a label in range selects is the label's own number. -/
theorem cls_val {t : BitVec 32} (hne : t ≠ ign) (ht : t.toNat < 170) : (cls t).val = t.toNat := by
  show (safe t).toNat % 170 = t.toNat
  rw [safe_of_ne hne]; exact Nat.mod_eq_of_lt ht

/-- The one-hot row of a class label is the indicator of that class. -/
theorem hot_eq {t : BitVec 32} (hne : t ≠ ign) (ht : t.toNat < 170) (k : Fin 170) :
    hot t k = if cls t = k then 1 else 0 := by
  unfold hot
  rw [safe_of_ne hne]
  have hcv := cls_val hne ht
  have hiff : BitVec.ofNat 32 k.val = t ↔ cls t = k := by
    constructor
    · intro h
      apply Fin.ext
      have h2 : (BitVec.ofNat 32 k.val).toNat = t.toNat := by rw [h]
      rw [BitVec.toNat_ofNat, Nat.mod_eq_of_lt (by have := k.isLt; omega)] at h2
      rw [hcv, h2]
    · intro h
      have h2 : k.val = t.toNat := by rw [← h]; exact hcv
      apply BitVec.eq_of_toNat_eq
      rw [BitVec.toNat_ofNat, h2, Nat.mod_eq_of_lt t.isLt]
  by_cases h : BitVec.ofNat 32 k.val = t
  · rw [if_pos h, if_pos (hiff.1 h)]
  · rw [if_neg h, if_neg (fun h' => h (hiff.2 h'))]

/-- The one-hot product of a class label picks its class's entry out of any family. -/
theorem gather_hot {t : BitVec 32} (hne : t ≠ ign) (ht : t.toNat < 170) (x : Fin 170 → EReal) :
    ∑ k, hot t k * x k = x (cls t) := by
  rw [Finset.sum_eq_single (cls t)]
  · rw [hot_eq hne ht, if_pos rfl, one_mul]
  · intro k _ hk
    rw [hot_eq hne ht, if_neg (fun h => hk h.symm), zero_mul]
  · intro h; exact absurd (Finset.mem_univ _) h

/-! ### The identity over the reals -/

/-- Entropy minus cross term is the masked sum, for nonnegative reals p and reals lam. -/
theorem real_identity (p lam : Fin 170 → ℝ) (hp : ∀ c, 0 ≤ p c) :
    (∑ c, (if 0 < p c then p c * Real.log (p c) else 0)) - ∑ c, p c * lam c
      = ∑ c, (if 0 < p c then p c * (Real.log (p c) - lam c) else 0) := by
  rw [← Finset.sum_sub_distrib]
  refine Finset.sum_congr rfl (fun c _ => ?_)
  by_cases h : 0 < p c
  · rw [if_pos h, if_pos h]; ring
  · have h0 : p c = 0 := le_antisymm (not_lt.1 h) (hp c)
    rw [if_neg h, if_neg h, h0]; ring

/-! ### The two cases -/

/-- An ignored row: both arrangements are zero. -/
theorem rowK_eq_rowR_ign (S : Fin 170 → Fin 170 → EReal) (l : Fin 170 → EReal) :
    rowK S ign l = rowR S ign l := by
  have hv : valid ign = 0 := by unfold valid; rw [if_pos rfl]
  have hK : rowK S ign l = 0 := by unfold rowK rowLoss; rw [hv, zero_mul]
  have hR : rowR S ign l = 0 := by
    unfold rowR
    refine Finset.sum_eq_zero (fun c _ => ?_)
    have hs : softR S ign c = 0 := by unfold softR; rw [hv, mul_zero]
    unfold klR
    rw [hs, if_neg (lt_irrefl _)]
  rw [hK, hR]

/-- A labelled row: the table arrangement is the direct one. -/
theorem rowK_eq_rowR_cls (S : Fin 170 → Fin 170 → EReal) (t : BitVec 32) (l : Fin 170 → EReal)
    (hS : ∀ i c, ∃ x : ℝ, S i c = (x : EReal)) (hl : ∀ c, ∃ x : ℝ, l c = (x : EReal))
    (hne : t ≠ ign) (ht : t.toNat < 170) (hpos : ∀ i c, 0 ≤ soft S i c) :
    rowK S t l = rowR S t l := by
  choose p hp0 hp using fun c => soft_real S hS hpos (cls t) c
  choose lam hlam using lsm_real l hl
  have hv : valid t = 1 := by unfold valid; rw [if_neg hne]
  -- the gathered entropy and the gathered soft labels
  have hent : ent S (cls t) = ((∑ c, (if 0 < p c then p c * Real.log (p c) else 0) : ℝ) : EReal) :=
    sum_eq_coe _ _ (fun c => by rw [hp c, plogp_coe])
  have hK : rowK S t l
      = (((∑ c, (if 0 < p c then p c * Real.log (p c) else 0)) - ∑ c, p c * lam c : ℝ) : EReal) := by
    unfold rowK rowLoss
    rw [hv, one_mul, gather_hot hne ht, gather_hot hne ht, hent, add_sub_self_coe]
    have hterm : ∀ c, ((∑ k, hot t k * soft S k c) + (∑ k, hot t k * (soft S k c - soft S k c))) * lsm l c
        = ((p c * lam c : ℝ) : EReal) := by
      intro c
      rw [gather_hot hne ht (fun k => soft S k c), gather_hot hne ht (fun k => soft S k c - soft S k c), hp c,
        add_sub_self_coe, hlam c, ← EReal.coe_mul]
    rw [sum_eq_coe _ _ hterm, ← EReal.coe_sub]
  have hsoftR : ∀ c, softR S t c = (p c : EReal) := by
    intro c
    unfold softR
    rw [hv, mul_one, hot_eq hne ht, ← hp c]
    rfl
  have hR : rowR S t l
      = ((∑ c, (if 0 < p c then p c * (Real.log (p c) - lam c) else 0) : ℝ) : EReal) := by
    unfold rowR
    refine sum_eq_coe _ _ (fun c => ?_)
    unfold klR
    rw [hsoftR c, hlam c]
    by_cases h : 0 < p c
    · rw [if_pos (EReal.coe_pos.2 h), if_pos h, Ideal.log_coe, if_neg (not_le.2 h), ← EReal.coe_sub,
        ← EReal.coe_mul]
    · rw [if_neg (fun h' => h (EReal.coe_pos.1 h')), if_neg h, EReal.coe_zero]
  rw [hK, hR, real_identity p lam hp0]

/-- THE ROW IDENTITY. -/
theorem rowK_eq_rowR (S : Fin 170 → Fin 170 → EReal) (t : BitVec 32) (l : Fin 170 → EReal)
    (hS : ∀ i c, ∃ x : ℝ, S i c = (x : EReal)) (hl : ∀ c, ∃ x : ℝ, l c = (x : EReal))
    (ht : t = ign ∨ t.toNat < 170) (hpos : ∀ i c, 0 ≤ soft S i c) :
    rowK S t l = rowR S t l := by
  by_cases hne : t = ign
  · rw [hne]; exact rowK_eq_rowR_ign S l
  · rcases ht with h | h
    · exact absurd h hne
    · exact rowK_eq_rowR_cls S t l hS hl hne h hpos

end Cert.Spec

end
-- ==== Proof.PreFacts.lean ====
/-
  The precondition, decoded.

  The precondition of the soft-label KL loss is one boolean: the conjunction of four "for all entries" tests on the
  inputs (logits L, a 524288 × 170 array; labels t, 524288 words; similarities S, a 170 × 170 array):
      |L r c| < +∞ for all r, c;      |S i c| < +∞ for all i, c;
      t r = −100  or  0 ≤ t r < 170 (read signed) for all r;
      0.8 · [i = c] + 0.2 · S i c / (0 + Σ_c' S i c') ≥ 0 for all i, c.
  Read over the extended reals, where |x| is max x (−x) and the only values that are not below +∞ in absolute value
  are the two infinities, the first two say every logit and every similarity is a real number; the third says a
  label is the ignore word or, read unsigned, a class below 170; and the fourth is the nonnegativity of every entry of
  the soft-label table `Cert.Spec.soft` of S.  This file proves exactly that reading.
-/
import proofs.«418023_j52089363366642_3_alg».proof.Pre_finite_inputs
import proofs.«418023_j52089363366642_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx Cert.Pre_finite_inputs

/-- The scalar shape has one index, so a conjunction over all entries lands at that index whatever the entry. -/
instance : Subsingleton S_.Idx := ⟨fun a b => funext fun d => d.elim0⟩

/-! ## Finiteness of one number -/

/-- The f32 word with all exponent bits set and no fraction bit is +∞. -/
theorem inf_bits : Ideal.ofBits .f32 0x7F800000#32 = ⊤ := by
  simp [Ideal.ofBits, Ideal.ieee]

/-- |x| < +∞ for an extended real x means x is a real: at either infinity max x (−x) is +∞ itself. -/
theorem real_of_abs_lt {x : EReal} (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-! ## The four tests, entry by entry -/

/-- The soft-label table as the precondition forms it from S, operation by operation:
    0.8 · (the word [row = column] as a number) + 0.2 · S / (the row sums of S, started from 0, laid along each row). -/
def tbl [Facts] (a2 : FVec Ideal S170x170 .f32) : FVec Ideal S170x170 .f32 :=
  addf
    (mulf (broadcastInDim S170x170 ![] Facts.bcast_S_S170x170 (constant S_ .f32 0x3F4CCCCD#32))
      (uitofp .f32
        (cmpi .eq
          (addi (iotaInDim S170x170 32 0) (broadcastInDim S170x170 ![] Facts.bcast_S_S170x170 (constantI S_ 32 0#32)))
          (iotaInDim S170x170 32 1))))
    (mulf (broadcastInDim S170x170 ![] Facts.bcast_S_S170x170 (constant S_ .f32 0x3E4CCCCD#32))
      (Host.divf a2
        (broadcastInDim S170x170 ![0, 1] Facts.bcast_S170x1_S170x170_0_1
          (broadcastInDim S170x1 ![0] Facts.bcast_S170_S170x1_0
            (Host.reduceAdd a2 (constant S_ .f32 0x00000000#32) Facts.reducesTo_S170x170_S170_d1 Facts.h_S_)))))

/-- The precondition is a conjunction of four conjunctions over all entries; a conjunction of one-bit words is 1
    exactly when every word is, so each test holds at every entry. Here each is stated at one entry, as the comparison
    of that entry's numbers or words. -/
theorem split_pre [Facts] (a0 : FVec Ideal S524288x170 .f32) (a1 : IVec S524288 32) (a2 : FVec Ideal S170x170 .f32)
    (h : Cert.Pre_finite_inputs.fn (F := Ideal) a0 a1 a2 = fun _ => 1#1) :
    (∀ j, Ideal.cmp .olt (max (a0 j) (-(a0 j))) (Ideal.ofBits .f32 0x7F800000#32) = 1#1)
    ∧ (∀ j, Ideal.cmp .olt (max (a2 j) (-(a2 j))) (Ideal.ofBits .f32 0x7F800000#32) = 1#1)
    ∧ (∀ j, IntOp.ori (IntOp.cmpi .eq (a1 j) 4294967196#32)
        (IntOp.andi (IntOp.cmpi .sge (a1 j) 0#32) (IntOp.cmpi .slt (a1 j) 170#32)) = 1#1)
    ∧ (∀ j, Ideal.cmp .oge (tbl a2 j) (Ideal.ofBits .f32 0x00000000#32) = 1#1) := by
  have h0 := congrFun h ix0
  dsimp only [fn, fn_part1, fn_part2] at h0
  obtain ⟨h123, h4⟩ := IntOp.andi_eq_one.1 h0
  obtain ⟨h12, h3⟩ := IntOp.andi_eq_one.1 h123
  obtain ⟨h1, h2⟩ := IntOp.andi_eq_one.1 h12
  exact ⟨fun j => Host.reduce_andi_all _ _ _ _ _ h1 j, fun j => Host.reduce_andi_all _ _ _ _ _ h2 j,
    fun j => Host.reduce_andi_all _ _ _ _ _ h3 j, fun j => Host.reduce_andi_all _ _ _ _ _ h4 j⟩

/-! ## The label test -/

/-- A word that equals −100, or lies in [0, 170) read signed, is the ignore word or is below 170 read unsigned:
    a word that is nonnegative read signed has its top bit clear, and then both readings are the same number. -/
theorem label_range {t : BitVec 32}
    (h : IntOp.ori (IntOp.cmpi .eq t 4294967196#32)
        (IntOp.andi (IntOp.cmpi .sge t 0#32) (IntOp.cmpi .slt t 170#32)) = 1#1) :
    t = Cert.Spec.ign ∨ t.toNat < 170 := by
  rcases IntOp.ori_eq_one.1 h with h | h
  · exact Or.inl (IntOp.cmpi_eq.1 h)
  · obtain ⟨hge, hlt⟩ := IntOp.andi_eq_one.1 h
    have hge := IntOp.cmpi_sge.1 hge
    have hlt := IntOp.cmpi_slt.1 hlt
    rw [show (0#32 : BitVec 32).toInt = 0 from by decide] at hge
    rw [show (170#32 : BitVec 32).toInt = 170 from by decide] at hlt
    have hc := BitVec.toInt_eq_toNat_cond t
    right
    split at hc <;> omega

/-! ## The table test: the formed table is `Cert.Spec.soft` -/

/-- Two spellings of the entry (p, q) of a rectangle. -/
theorem ij_eq_ix2 {n m : Nat} (p : Fin n) (q : Fin m) : StableHlo.Predicate.ij p q = ix2 p q := by
  funext d; match d with | ⟨0, _⟩ => rfl | ⟨1, _⟩ => rfl

/-- Two spellings of the entry p of a vector. -/
theorem ofFin_eq_ix1 {n : Nat} (p : Fin n) : Shape.Idx.ofFin p = ix1 p := by
  funext d; match d with | ⟨0, _⟩ => rfl

/-- The diagonal indicator: the row number (plus the word 0) equals the column number, as 32-bit words, exactly when
    i = c — both are below 170, far from wrapping — and the one-bit answer read as a number is 1 or 0. -/
theorem diag_word (i c : Fin 170) :
    (((IntOp.cmpi .eq (IntOp.addi (BitVec.ofNat 32 i.val) 0#32) (BitVec.ofNat 32 c.val)).toNat : ℝ) : EReal)
      = if i = c then 1 else 0 := by
  by_cases hic : i = c
  · subst hic
    have hw : IntOp.cmpi .eq (IntOp.addi (BitVec.ofNat 32 i.val) 0#32) (BitVec.ofNat 32 i.val) = 1#1 :=
      IntOp.cmpi_eq.2 (BitVec.add_zero _)
    rw [if_pos rfl, hw]
    simp
  · have hw : IntOp.cmpi .eq (IntOp.addi (BitVec.ofNat 32 i.val) 0#32) (BitVec.ofNat 32 c.val) = 0#1 := by
      refine eq_zero_of_ne_one fun h1 => hic (Fin.ext ?_)
      have he := congrArg BitVec.toNat ((BitVec.add_zero _).symm.trans (IntOp.cmpi_eq.1 h1))
      rw [BitVec.toNat_ofNat, BitVec.toNat_ofNat] at he
      have := i.isLt; have := c.isLt
      omega
    rw [if_neg hic, hw]
    simp

/-- The divisor at entry (i, c): the vector of row sums laid along every row reads, at (i, c), row i's sum, and that
    sum, started from the f32 word of zero, is 0 + Σ_c' S i c' = Σ_c' S i c'. -/
theorem row_sum [Facts] (a2 : FVec Ideal S170x170 .f32) (i c : Fin 170) :
    broadcastInDim S170x170 ![0, 1] Facts.bcast_S170x1_S170x170_0_1
          (broadcastInDim S170x1 ![0] Facts.bcast_S170_S170x1_0
            (Host.reduceAdd a2 (constant S_ .f32 0x00000000#32) Facts.reducesTo_S170x170_S170_d1 Facts.h_S_)) (ix2 i c)
      = ∑ c' : Fin 170, a2 (ix2 i c') := by
  rw [← ij_eq_ix2, StableHlo.Predicate.bcast_rows, ofFin_eq_ix1]
  show Ideal.hostReduceAdd Facts.reducesTo_S170x170_S170_d1 a2 (Ideal.ofBits .f32 0x00000000#32) (ix1 i) = _
  rw [Ideal.hostReduceAdd_single Facts.reducesTo_S170x170_S170_d1 (by decide) a2 _ (ix1 i), Ideal.ofBits_zero_f32, zero_add]
  refine Finset.sum_congr rfl fun k _ => congrArg a2 (funext fun d => ?_)
  match d with
  | ⟨0, _⟩ => exact Fin.ext rfl
  | ⟨1, _⟩ => exact Fin.ext rfl

/-- Entry (i, c) of the formed table is the soft label of class i at class c: the constants are a and b, the
    indicator is [i = c], the divisor is row i's sum, and every other operation acts entry by entry. -/
theorem tbl_apply [Facts] (a2 : FVec Ideal S170x170 .f32) (i c : Fin 170) :
    tbl a2 (ix2 i c) = Cert.Spec.soft (fun i c => a2 (ix2 i c)) i c := by
  unfold Cert.Spec.soft Cert.Spec.rowSum
  rw [← diag_word i c, ← row_sum a2 i c]
  rfl

/-! ## The four facts -/

/-- Every logit is a real number. -/
theorem logits_real [Facts] (a0 : FVec Ideal S524288x170 .f32) (a1 : IVec S524288 32) (a2 : FVec Ideal S170x170 .f32)
    (h : Cert.Pre_finite_inputs.fn (F := Ideal) a0 a1 a2 = fun _ => 1#1) (r : Fin 524288) (c : Fin 170) :
    ∃ x : ℝ, a0 (ix2 r c) = (x : EReal) :=
  real_of_abs_lt ((split_pre a0 a1 a2 h).1 (ix2 r c))

/-- Every similarity is a real number. -/
theorem sim_real [Facts] (a0 : FVec Ideal S524288x170 .f32) (a1 : IVec S524288 32) (a2 : FVec Ideal S170x170 .f32)
    (h : Cert.Pre_finite_inputs.fn (F := Ideal) a0 a1 a2 = fun _ => 1#1) (i c : Fin 170) :
    ∃ x : ℝ, a2 (ix2 i c) = (x : EReal) :=
  real_of_abs_lt ((split_pre a0 a1 a2 h).2.1 (ix2 i c))

/-- Every label is the ignore word or a class below 170. -/
theorem label_ok [Facts] (a0 : FVec Ideal S524288x170 .f32) (a1 : IVec S524288 32) (a2 : FVec Ideal S170x170 .f32)
    (h : Cert.Pre_finite_inputs.fn (F := Ideal) a0 a1 a2 = fun _ => 1#1) (r : Fin 524288) :
    a1 (ix1 r) = Cert.Spec.ign ∨ (a1 (ix1 r)).toNat < 170 :=
  label_range ((split_pre a0 a1 a2 h).2.2.1 (ix1 r))

/-- Every soft label is nonnegative: the test "table entry ≥ the f32 word of zero" is 0 ≤ soft S i c. -/
theorem soft_nonneg [Facts] (a0 : FVec Ideal S524288x170 .f32) (a1 : IVec S524288 32) (a2 : FVec Ideal S170x170 .f32)
    (h : Cert.Pre_finite_inputs.fn (F := Ideal) a0 a1 a2 = fun _ => 1#1) (i c : Fin 170) :
    0 ≤ Cert.Spec.soft (fun i c => a2 (ix2 i c)) i c := by
  have h4 := (split_pre a0 a1 a2 h).2.2.2 (ix2 i c)
  rw [tbl_apply, Ideal.ofBits_zero_f32] at h4
  exact of_decide_eq_true ((StableHlo.Predicate.ofBool_eq_one_iff _).1 h4)

/-- The precondition decoded: real logits, real similarities, labels in range, a nonnegative soft-label table. -/
theorem facts_of_pre [Cert.Pre_finite_inputs.Facts] (a0 : FVec Ideal S524288x170 .f32) (a1 : IVec S524288 32) (a2 : FVec Ideal S170x170 .f32)
    (h : Cert.Pre_finite_inputs.fn (F := Ideal) a0 a1 a2 = fun _ => 1#1) :
    (∀ (r : Fin 524288) (c : Fin 170), ∃ x : ℝ, a0 (ix2 r c) = (x : EReal))
    ∧ (∀ i c : Fin 170, ∃ x : ℝ, a2 (ix2 i c) = (x : EReal))
    ∧ (∀ r : Fin 524288, a1 (ix1 r) = Cert.Spec.ign ∨ (a1 (ix1 r)).toNat < 170)
    ∧ (∀ i c : Fin 170, 0 ≤ Cert.Spec.soft (fun i c => a2 (ix2 i c)) i c) :=
  ⟨logits_real a0 a1 a2 h, sim_real a0 a1 a2 h, label_ok a0 a1 a2 h, soft_nonneg a0 a1 a2 h⟩

end Cert.PreFacts

end
-- ==== Proof.RefLemmas.lean ====
/-
  Small facts the reading of the reference's result rests on, none of them about the program itself.

  WORDS. A label t is a 32-bit word: the ignore label −100 or a class below 170. The reference replaces an ignored
  label by class 0 (`safe`), tests "label ≠ −100" (`valid`), compares the safe label with a class number (`hot`),
  and, before it gathers, wraps a negative index by adding 170. A safe label is a class below 170, so as a signed
  number it is not negative and the wrap leaves it alone; read signed and clamped into [0, 169] it is the class
  `cls t` itself.

  THE GATHER OF ROWS. A gather of an N × M table at an R × 1 column of start indices, the table's first axis
  collapsed and start-indexed, its second axis the result's offset axis: result element (r, c) is the table at
  (the r-th start index read signed and clamped into [0, N − 1], c).

  THE ROW MAXIMUM. A reduce with a maximum body along the second axis of an R × M array is, at row r, the fold of max
  from the initial value over the row's M entries; and the maximum of the start value with such a fold is the fold,
  a fold of max being at least its start value.
-/
import proofs.«418023_j52089363366642_3_alg».proof.Proof.Spec
import Idealize.ShloMosaic.Lib.ValueIdx
import Idealize.ShloMosaic.Lib.Pipeline.Value
import Idealize.ShloMosaic.PureOps.Ideal.Laws

noncomputable section

namespace Cert.RefLemmas

open Idealize.ShloMosaic Idealize.ShloMosaic.ValueIdx Cert.Spec

/-! ## Words -/

/-- "t if t ≠ −100 else 0" is the safe label. -/
theorem sel_ne_ign (t : BitVec 32) : Scalar.select (IntOp.cmpi .ne t ign) t 0#32 = safe t := by
  unfold Scalar.select IntOp.cmpi safe
  by_cases h : t = ign
  · simp [h]
  · have hb : (t != ign) = true := bne_iff_ne.mpr h
    rw [if_neg h]
    show (if BitVec.ofBool (t != ign) = 1#1 then t else 0#32) = t
    rw [hb]; rfl

/-- The bit "t ≠ −100" read as a number is 1 on a labelled row and 0 on an ignored one. -/
theorem valid_of_bit (t : BitVec 32) : FloatOps.uitofp (F := Ideal) .f32 (IntOp.cmpi .ne t ign) = valid t := by
  unfold IntOp.cmpi valid
  show (((BitVec.ofBool (t != ign)).toNat : ℝ) : EReal) = _
  by_cases h : t = ign
  · simp [h]
  · simp [h]

/-- The bit "safe label = c" read as a number is the one-hot row's entry at class c. -/
theorem hot_of_bit (t : BitVec 32) (c : Fin 170) :
    FloatOps.uitofp (F := Ideal) .f32 (IntOp.cmpi .eq (safe t) (BitVec.ofNat 32 c.val)) = hot t c := by
  unfold IntOp.cmpi hot
  show (((BitVec.ofBool (safe t == BitVec.ofNat 32 c.val)).toNat : ℝ) : EReal) = _
  by_cases h : BitVec.ofNat 32 c.val = safe t
  · simp [h]
  · have h' : ¬ safe t = BitVec.ofNat 32 c.val := fun e => h e.symm
    simp [h, h']

/-- A safe label is a class: below 170. -/
theorem safe_toNat_lt (t : BitVec 32) (h : t = ign ∨ t.toNat < 170) : (safe t).toNat < 170 := by
  unfold safe
  by_cases e : t = ign
  · simp [e]
  · rw [if_neg e]; exact h.resolve_left e

/-- A safe label is not negative as a signed number, so "add 170 where negative" returns it unchanged. -/
theorem wrap_safe (t : BitVec 32) (h : t = ign ∨ t.toNat < 170) :
    Scalar.select (IntOp.cmpi .slt (safe t) 0#32) (IntOp.addi (safe t) 170#32) (safe t) = safe t := by
  have hl := safe_toNat_lt t h
  unfold Scalar.select IntOp.cmpi
  have : (safe t).slt 0#32 = false := by
    simp only [BitVec.slt, BitVec.toInt_eq_toNat_cond]
    simp; omega
  simp [this]

/-- Read signed and clamped into [0, 169], a safe label is its class. -/
theorem clamp_safe (t : BitVec 32) (h : t = ign ∨ t.toNat < 170) :
    min (safe t).toInt.toNat (170 - 1) = (cls t).val := by
  have hl := safe_toNat_lt t h
  have e : (safe t).toInt = ((safe t).toNat : Int) := by
    rw [BitVec.toInt_eq_toNat_cond]; simp; omega
  unfold cls
  simp only [e, Int.toNat_natCast]
  omega

/-! ## The gather of rows -/

/-- Result element (r, c) of the row gather: on the table's first axis the start index (read off the column at
    (r, 0), signed, clamped so that the one-row slice fits), no batching or offset part; on its second axis no start
    and no batching part, the offset coordinate c. -/
theorem gather_row_apply {α : Type} {N M R w : Nat} (d : GatherDims ⟨2, ![N, M]⟩ ⟨2, ![R, 1]⟩ ⟨2, ![R, M]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, M]⟩ : Shape).Idx → α) (idx : IVec ⟨2, ![R, 1]⟩ w) (r : Fin R) (c : Fin M) :
    Host.gather d x idx (ix2 r c) = x (ix2 ⟨min (idx (ix2 r (0 : Fin 1))).toInt.toNat (N - 1), by omega⟩ c) := by
  have hsl : d.sliceSizes 0 = 1 := d.slice_collapsed 0 (by rw [hcoll]; exact List.mem_singleton.mpr rfl)
  obtain ⟨od, cd, obd, sibd, sim, ivd, ss, wf⟩ := d
  simp only at hoff hcoll hob hsim hivd hsl
  subst hoff hcoll hob hsim hivd
  unfold Host.gather
  congr 1
  funext a
  apply Fin.ext
  have h1n0 : (1 : Fin 2) ∉ ([0] : List (Fin 2)) := by decide
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0] : List (Fin 2)) from List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg h1n0]
    simp only [Nat.add_zero, Nat.zero_add]
    unfold GatherDims.offCoord
    rw [dif_pos ((GatherDims.mem_sKept _ _).mpr ⟨h1n0, List.not_mem_nil⟩)]
    rfl

/-! ## The row maximum -/

/-- The reduced index r with column k put back is (r, k). -/
theorem lift_row {R M : Nat} (h : (⟨2, ![R, M]⟩ : Shape).Reduces [1] (⟨1, ![R]⟩ : Shape)) (r : Fin R)
    (k : Fin ((⟨2, ![R, M]⟩ : Shape).size 1)) : h.lift (ix1 r) k = ix2 r (⟨k.val, k.isLt⟩ : Fin M) := by
  funext a; apply Fin.ext
  match a with
  | ⟨0, _⟩ => rfl
  | ⟨1, _⟩ => rfl

/-- A reduce with a maximum body along the columns, at row r: the fold of max from the initial value over the row. -/
theorem hostReduce_max_row {R M : Nat} (x : FVec Ideal ⟨2, ![R, M]⟩ .f32) (init : (⟨0, ![]⟩ : Shape).Idx → Ideal .f32)
    (h' : (⟨2, ![R, M]⟩ : Shape).ReducesTo [1] (⟨1, ![R]⟩ : Shape))
    (h : (⟨2, ![R, M]⟩ : Shape).Reduces [1] (⟨1, ![R]⟩ : Shape)) (hu : 0 < (⟨0, ![]⟩ : Shape).numel) (r : Fin R) :
    Host.reduce FloatOps.maximumf x init h' hu (ix1 r)
      = (Finset.univ : Finset (Fin M)).fold max (init (Shape.Idx.first hu)) (fun c => x (ix2 r c)) := by
  rw [Host.reduce_eq_fold_single FloatOps.maximumf x init h' h hu]
  have hf : (x ∘ h.lift (ix1 r)) = fun k : Fin M => x (ix2 r k) := funext fun k => congrArg x (lift_row h r k)
  rw [hf]
  rfl

/-- A fold of max is at least its start value, so taking the maximum with the start value once more changes nothing. -/
theorem max_start_fold {M : Nat} (b : EReal) (l : Fin M → EReal) :
    max b ((Finset.univ : Finset (Fin M)).fold max b l) = (Finset.univ : Finset (Fin M)).fold max b l :=
  max_eq_right (Finset.le_fold_max b |>.mpr (Or.inl le_rfl))

end Cert.RefLemmas

end
-- ==== Proof.RefValue.lean ====
/-
  The reference's result, read as mathematics.

  The reference computes, for every row r with label t = targets r and logits l = logits r, and every class c,
      p = (wA · [safe t = c] + wB · S (cls t) c / Σ_c' S (cls t) c') · valid t           (the row's soft label, masked),
      the term  p · (log p − lsm l c)  where p > 0, and 0 elsewhere,
  sums the terms over all rows and classes, divides by the batch size and clamps the quotient below at zero. Each
  stage of the program is read here at one element (r, c); the sum over all elements is then the double sum over rows
  and classes, whose inner sum is `rowR`.

  Two stages select their element by a value. The gather of the label's similarity row reads the table at the row
  whose number is the start index read signed and clamped into [0, 169]: the start index is the safe label after a
  wrap of negative values, and a safe label (a class below 170) is neither negative nor above 169, so the row is
  `cls t`. The row maximum is a fold of max from −∞ over the row's entries, and the further maximum with −∞ that the
  program takes leaves it as it is.
-/
import proofs.«418023_j52089363366642_3_alg».proof.Proof.RefRead
import proofs.«418023_j52089363366642_3_alg».proof.Proof.RefLemmas
import proofs.«418023_j52089363366642_3_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen Cert.ReferenceIdeal.Read
open Cert.Spec Cert.RefLemmas

variable (x0 : (⟨S524288x170, .f32⟩ : BufTy).Contents (Elt Ideal)) (x1 : (⟨S524288, .i32⟩ : BufTy).Contents (Elt Ideal))
  (x2 : (⟨S170x170, .f32⟩ : BufTy).Contents (Elt Ideal))

/-! ## The label column -/

/-- Stage 2 at row r: the safe label (the label, or class 0 on an ignored row). -/
theorem v2_at (r : Fin 524288) : val_main_v2 (F := Ideal) x1 (ix1 r) = safe (x1 (ix1 r)) := by
  rw [val_main_v2_apply, val_main_v1_apply, val_main_v0_apply, val_main_c_apply, val_main_call0_v1_apply,
    val_main_call0_v0_apply, val_main_c_0_apply]
  exact sel_ne_ign _

/-- Stage 7 at row r: the safe label again, the wrap of negative indices finding nothing to wrap. -/
theorem v7_at (r : Fin 524288) (hT : x1 (ix1 r) = ign ∨ (x1 (ix1 r)).toNat < 170) :
    val_main_v7 (F := Ideal) x1 (ix1 r) = safe (x1 (ix1 r)) := by
  rw [val_main_v7_apply, val_main_v4_apply, val_main_v6_apply, v2_at, val_main_v3_apply, val_main_c_1_apply,
    val_main_v5_apply, val_main_c_2_apply]
  exact wrap_safe _ hT

/-- Stage 8, the start-index column, at (r, 0). -/
theorem v8_at (r : Fin 524288) (hT : x1 (ix1 r) = ign ∨ (x1 (ix1 r)).toNat < 170) :
    val_main_v8 (F := Ideal) x1 (ix2 r (0 : Fin 1)) = safe (x1 (ix1 r)) := by
  have e : idx_main_v8 (ix2 r (0 : Fin 1)) = ix1 r := by funext a; match a with | ⟨0, _⟩ => rfl
  rw [val_main_v8_apply, e, v7_at x1 r hT]

/-! ## The label's similarity row, its sum, the normalised row -/

/-- Stage 9, the gather, at (r, c): the similarity matrix at (cls t, c). -/
theorem v9_at (r : Fin 524288) (c : Fin 170) (hT : x1 (ix1 r) = ign ∨ (x1 (ix1 r)).toNat < 170) :
    val_main_v9 (F := Ideal) x1 x2 (ix2 r c) = x2 (ix2 (cls (x1 (ix1 r))) c) := by
  unfold val_main_v9
  rw [gather_row_apply _ rfl rfl rfl rfl rfl (by decide)]
  refine congrArg x2 (congrArg (fun i => ix2 i c) (Fin.ext ?_))
  show min (val_main_v8 (F := Ideal) x1 (ix2 r (0 : Fin 1))).toInt.toNat (170 - 1) = _
  rw [v8_at x1 r hT]
  exact clamp_safe _ hT

/-- Stage 10 at row r: the sum of the label's similarity row. -/
theorem v10_at (r : Fin 524288) (hT : x1 (ix1 r) = ign ∨ (x1 (ix1 r)).toNat < 170) :
    val_main_v10 (F := Ideal) x1 x2 (ix1 r) = rowSum (fun i c => x2 (ix2 i c)) (cls (x1 (ix1 r))) := by
  rw [val_main_v10_apply, val_main_cst_apply, Ideal.ofBits_def, Ideal.ofBits_zero_f32, zero_add]
  unfold rowSum
  refine Finset.sum_congr rfl fun k _ => ?_
  have e : idx_main_v10 (ix1 r) k = ix2 r k := by funext a; match a with | ⟨0, _⟩ => rfl | ⟨1, _⟩ => rfl
  rw [e, v9_at x1 x2 r k hT]

/-- Stage 13 at (r, c): the label's similarity row divided by its sum. -/
theorem v13_at (r : Fin 524288) (c : Fin 170) (hT : x1 (ix1 r) = ign ∨ (x1 (ix1 r)).toNat < 170) :
    val_main_v13 (F := Ideal) x1 x2 (ix2 r c)
      = Ideal.div (x2 (ix2 (cls (x1 (ix1 r))) c)) (rowSum (fun i c => x2 (ix2 i c)) (cls (x1 (ix1 r)))) := by
  have e12 : idx_main_v12 (ix2 r c) = ix2 r (0 : Fin 1) := by funext a; match a with | ⟨0, _⟩ => rfl | ⟨1, _⟩ => rfl
  have e11 : idx_main_v11 (ix2 r (0 : Fin 1)) = ix1 r := by funext a; match a with | ⟨0, _⟩ => rfl
  rw [val_main_v13_apply, v9_at x1 x2 r c hT, val_main_v12_apply, e12, val_main_v11_apply, e11, v10_at x1 x2 r hT]
  rfl

/-! ## The one-hot row and the mask -/

/-- Stage 14 at (r, c): the one-hot row of the label at class c. -/
theorem v14_at (r : Fin 524288) (c : Fin 170) : val_main_v14 (F := Ideal) x1 (ix2 r c) = hot (x1 (ix1 r)) c := by
  have e2 : idx_main_call1_v2 (ix2 r c) = ix2 r (0 : Fin 1) := by funext a; match a with | ⟨0, _⟩ => rfl | ⟨1, _⟩ => rfl
  have e0 : idx_main_call1_v0 (ix2 r (0 : Fin 1)) = ix1 r := by funext a; match a with | ⟨0, _⟩ => rfl
  rw [val_main_v14_apply, val_main_call1_v4_apply, val_main_call1_v2_apply, e2, val_main_call1_v0_apply, e0, v2_at,
    val_main_call1_v3_apply, val_main_call1_v1_apply]
  exact hot_of_bit _ c

/-- Stage 22 at (r, c): 1 on a labelled row, 0 on an ignored one. -/
theorem v22_at (r : Fin 524288) (c : Fin 170) : val_main_v22 (F := Ideal) x1 (ix2 r c) = valid (x1 (ix1 r)) := by
  have e22 : idx_main_v22 (ix2 r c) = ix2 r (0 : Fin 1) := by funext a; match a with | ⟨0, _⟩ => rfl | ⟨1, _⟩ => rfl
  have e20 : idx_main_v20 (ix2 r (0 : Fin 1)) = ix1 r := by funext a; match a with | ⟨0, _⟩ => rfl
  rw [val_main_v22_apply, e22, val_main_v21_apply, val_main_v20_apply, e20, val_main_v1_apply, val_main_v0_apply,
    val_main_c_apply]
  exact valid_of_bit _

/-! ## The row's soft label -/

/-- Stage 23 at (r, c): the masked soft label. -/
theorem v23_at (r : Fin 524288) (c : Fin 170) (hT : x1 (ix1 r) = ign ∨ (x1 (ix1 r)).toNat < 170) :
    val_main_v23 (F := Ideal) x1 x2 (ix2 r c) = softR (fun i c => x2 (ix2 i c)) (x1 (ix1 r)) c := by
  rw [val_main_v23_apply, val_main_v19_apply, val_main_v16_apply, val_main_v15_apply, val_main_cst_3_apply, v14_at,
    val_main_v18_apply, val_main_v17_apply, val_main_cst_4_apply, v13_at x1 x2 r c hT, v22_at]
  rfl

/-! ## The log-softmax of the row's logits -/

/-- The row maximum (stage 2 of the log-softmax) at row r. -/
theorem max_at (r : Fin 524288) : val_main_call2_v2 (F := Ideal) x0 (ix1 r) = rmax (fun c => x0 (ix2 r c)) := by
  rw [val_main_call2_v2_apply, val_main_call2_v1_apply, val_main_call2_cst_0_apply]
  unfold val_main_call2_v0
  rw [hostReduce_max_row x0 _ reducesTo_S524288x170_S524288_d1 (by decide) h_S_ r, val_main_call2_cst_apply]
  exact max_start_fold _ _

/-- The shifted logit (stage 5 of the log-softmax) at (r, c). -/
theorem shift_at (r : Fin 524288) (c : Fin 170) :
    val_main_call2_v5 (F := Ideal) x0 (ix2 r c) = x0 (ix2 r c) - rmax (fun c => x0 (ix2 r c)) := by
  have e4 : idx_main_call2_v4 (ix2 r c) = ix2 r (0 : Fin 1) := by funext a; match a with | ⟨0, _⟩ => rfl | ⟨1, _⟩ => rfl
  have e3 : idx_main_call2_v3 (ix2 r (0 : Fin 1)) = ix1 r := by funext a; match a with | ⟨0, _⟩ => rfl
  rw [val_main_call2_v5_apply, val_main_call2_v4_apply, e4, val_main_call2_v3_apply, e3, max_at]
  rfl

/-- The sum of exponentials (stage 7 of the log-softmax) at row r. -/
theorem sumexp_at (r : Fin 524288) :
    val_main_call2_v7 (F := Ideal) x0 (ix1 r)
      = ∑ c' : Fin 170, Ideal.exp (x0 (ix2 r c') - rmax (fun c => x0 (ix2 r c))) := by
  rw [val_main_call2_v7_apply, val_main_call2_cst_1_apply, Ideal.ofBits_def, Ideal.ofBits_zero_f32, zero_add]
  refine Finset.sum_congr rfl fun k _ => ?_
  have e : idx_main_call2_v7 (ix1 r) k = ix2 r k := by funext a; match a with | ⟨0, _⟩ => rfl | ⟨1, _⟩ => rfl
  rw [e, val_main_call2_v6_apply, shift_at]
  rfl

/-- Stage 24 at (r, c): the log-softmax of row r's logits at class c. -/
theorem v24_at (r : Fin 524288) (c : Fin 170) :
    val_main_v24 (F := Ideal) x0 (ix2 r c) = lsm (fun c => x0 (ix2 r c)) c := by
  have e10 : idx_main_call2_v10 (ix2 r c) = ix2 r (0 : Fin 1) := by funext a; match a with | ⟨0, _⟩ => rfl | ⟨1, _⟩ => rfl
  have e8 : idx_main_call2_v8 (ix2 r (0 : Fin 1)) = ix1 r := by funext a; match a with | ⟨0, _⟩ => rfl
  rw [val_main_v24_apply, shift_at, val_main_call2_v10_apply, e10, val_main_call2_v9_apply, val_main_call2_v8_apply, e8,
    sumexp_at]
  rfl

/-! ## The masked KL term -/

/-- Stage 26 at (r, c): the bit "the soft label is positive". -/
theorem v26_at (r : Fin 524288) (c : Fin 170) (hT : x1 (ix1 r) = ign ∨ (x1 (ix1 r)).toNat < 170) :
    val_main_v26 (F := Ideal) x1 x2 (ix2 r c)
      = BitVec.ofBool (decide (0 < softR (fun i c => x2 (ix2 i c)) (x1 (ix1 r)) c)) := by
  rw [val_main_v26_apply, v23_at x1 x2 r c hT, val_main_v25_apply, val_main_cst_5_apply, Ideal.ofBits_def,
    Ideal.ofBits_zero_f32]
  rfl

/-- Stage 31 at (r, c): the class's KL term. Where the soft label p is positive both selects take their first operand
    and the term is p · (log p − lsm); elsewhere the last select gives 0. -/
theorem v31_at (r : Fin 524288) (c : Fin 170) (hT : x1 (ix1 r) = ign ∨ (x1 (ix1 r)).toNat < 170) :
    val_main_v31 (F := Ideal) x0 x1 x2 (ix2 r c)
      = klR (fun i c => x2 (ix2 i c)) (x1 (ix1 r)) (fun c => x0 (ix2 r c)) c := by
  rw [val_main_v31_apply, v26_at x1 x2 r c hT]
  unfold klR
  by_cases hp : 0 < softR (fun i c => x2 (ix2 i c)) (x1 (ix1 r)) c
  · rw [if_pos hp, decide_eq_true hp]
    show Scalar.select 1#1 _ _ = _
    rw [select_one, val_main_v30_apply, v23_at x1 x2 r c hT, val_main_v29_apply, val_main_v28_apply, val_main_v27_apply,
      v26_at x1 x2 r c hT, decide_eq_true hp]
    show _ * (FloatOps.hostUnary .log (Scalar.select 1#1 _ _) - _) = _
    rw [select_one, v23_at x1 x2 r c hT, v24_at]
    rfl
  · rw [if_neg hp, decide_eq_false hp]
    show Scalar.select 0#1 _ _ = _
    rw [select_zero, val_main_call4_v1_apply, val_main_call4_v0_apply, val_main_cst_7_apply, Ideal.ofBits_def,
      Ideal.ofBits_zero_f32]

/-! ## The result -/

/-- The reference's result: the batch mean of the rows' direct losses, clamped below at zero. -/
theorem res_eq (hT : ∀ r : Fin 524288, x1 (ix1 r) = Cert.Spec.ign ∨ (x1 (ix1 r)).toNat < 170) :
    val_main_v34 (F := Ideal) x0 x1 x2
      = fun _ => Cert.Spec.mean0 (∑ r : Fin 524288, Cert.Spec.rowR (fun i c => x2 (ix2 i c)) (x1 (ix1 r)) (fun c => x0 (ix2 r c))) := by
  funext i
  rw [val_main_v34_apply, val_main_v33_apply, val_main_v32_apply, val_main_cst_8_apply, val_main_cst_9_apply,
    val_main_cst_10_apply, Ideal.ofBits_def, Ideal.ofBits_def, Ideal.ofBits_zero_f32, zero_add, sum_idx2]
  unfold mean0 rowR
  have hs : ∀ r : Fin 524288, ∑ c : Fin 170, val_main_v31 (F := Ideal) x0 x1 x2 (ix2 r c)
      = ∑ c : Fin 170, klR (fun i c => x2 (ix2 i c)) (x1 (ix1 r)) (fun c => x0 (ix2 r c)) c :=
    fun r => Finset.sum_congr rfl fun c _ => v31_at x0 x1 x2 r c (hT r)
  simp only [hs]
  rfl

end Cert.RefValue

end
-- ==== Proof.RefRunHand.lean ====
import proofs.«418023_j52089363366642_3_alg».proof.Proof.RefRunOps
import proofs.«418023_j52089363366642_3_alg».proof.Proof.RefRead
import Idealize.ShloMosaic.Lib.StableHlo.Run

noncomputable section

namespace Cert.ReferenceIdeal.RunHand

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! # The reference's run, read stage by stage

The reference program is a straight line of 73 host operations. Each operation writes one buffer that no other
operation writes, so what a buffer holds at the end is what its own operation wrote there, a function of what the
operation's operands held when it ran. Read.lean names that function, operation by operation (`val_<buffer>`, each
defined from the stages before it). Here the line is cut into twelve consecutive stretches that follow the
program's data flow:

* A  the label mask (label ≠ −100) and the safe label (the label where valid, else 0);
* B  the safe label wrapped into [0, 170) as a gather index, one per row;
* C  the gathered similarity rows divided by their row sums;
* D  the one-hot rows of the safe label;
* E  the soft label, 0.8 · one-hot + 0.2 · normalized row;
* F  the soft label times the mask (a float column broadcast along the classes);
* G  the row maximum of the logits;
* H  the logits shifted by their row maximum;
* I  the log-softmax: the shifted logits minus the log of the row sum of their exponentials;
* J  the positivity test on the masked soft label and the guarded argument of its logarithm;
* K  the pointwise term p · (log p − logsoftmax) where p > 0, else 0;
* L  the sum over everything, divided by the number of rows, clamped at zero from below.

For each stretch, over an ARBITRARY valuation `W` of the buffers that agrees with the stages on the buffers the stretch
reads, the valuation after the stretch agrees with the stages on the buffers later stretches read, and leaves
untouched the earlier buffers that are still to be read. The run of the whole line is the twelve facts in a row. -/

/-- The three argument arrays' content types: logits, labels, similarities. -/
abbrev X0 (F : FTy → Type) : Type := (⟨S524288x170, .f32⟩ : BufTy).Contents (Elt F)
abbrev X1 (F : FTy → Type) : Type := (⟨S524288, .i32⟩ : BufTy).Contents (Elt F)
abbrev X2 (F : FTy → Type) : Type := (⟨S170x170, .f32⟩ : BufTy).Contents (Elt F)

/-! ## A — the mask and the safe label -/

abbrev segA : List (HloOp τ sig (Elt F)) :=
  [ nullary main_c (constantI S_ 32 4294967196#32),
    unary main_c main_v0 (broadcastInDim S524288 ![] bcast_S_S524288 : (⟨S_, .i32⟩ : BufTy).Contents (Elt F) → (⟨S524288, .i32⟩ : BufTy).Contents (Elt F)),
    binary main_arg1 main_v0 main_v1 (cmpi .ne : (⟨S524288, .i32⟩ : BufTy).Contents (Elt F) → (⟨S524288, .i32⟩ : BufTy).Contents (Elt F) → (⟨S524288, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S524288, .i32⟩) main_call0_v1) (broadcastInDim S524288 ![] bcast_S_S524288),
    TRef.ternary (TRef.of (T := ⟨S524288, .i1⟩) main_v1) (TRef.of (T := ⟨S524288, .i32⟩) main_arg1) (TRef.of (T := ⟨S524288, .i32⟩) main_call0_v1) (TRef.of (T := ⟨S524288, .i32⟩) main_v2) select ]

theorem stepA (W : Valuation τ sig (Elt F)) (x1 : X1 F)
    (h1 : W (Proc.devRef .tc main_arg1) = x1) :
    after segA W (Proc.devRef .tc main_v1) = val_main_v1 (F := F) x1
    ∧ after segA W (Proc.devRef .tc main_v2) = val_main_v2 (F := F) x1
    ∧ after segA W (Proc.devRef .tc main_arg0) = W (Proc.devRef .tc main_arg0)
    ∧ after segA W (Proc.devRef .tc main_arg2) = W (Proc.devRef .tc main_arg2) := by
  refine ⟨?_, ?_, ?_, ?_⟩
  · after_results; rw [h1]; rfl
  · after_results; rw [h1]; rfl
  · after_results
  · after_results

/-! ## B — the gather index: the safe label, plus 170 where negative, as a column -/

abbrev segB : List (HloOp τ sig (Elt F)) :=
  [ nullary main_c_1 (constantI S_ 32 0#32),
    unary main_c_1 main_v3 (broadcastInDim S524288 ![] bcast_S_S524288 : (⟨S_, .i32⟩ : BufTy).Contents (Elt F) → (⟨S524288, .i32⟩ : BufTy).Contents (Elt F)),
    binary main_v2 main_v3 main_v4 (cmpi .slt : (⟨S524288, .i32⟩ : BufTy).Contents (Elt F) → (⟨S524288, .i32⟩ : BufTy).Contents (Elt F) → (⟨S524288, .i1⟩ : BufTy).Contents (Elt F)),
    nullary main_c_2 (constantI S_ 32 170#32),
    unary main_c_2 main_v5 (broadcastInDim S524288 ![] bcast_S_S524288 : (⟨S_, .i32⟩ : BufTy).Contents (Elt F) → (⟨S524288, .i32⟩ : BufTy).Contents (Elt F)),
    binary main_v2 main_v5 main_v6 (addi : (⟨S524288, .i32⟩ : BufTy).Contents (Elt F) → (⟨S524288, .i32⟩ : BufTy).Contents (Elt F) → (⟨S524288, .i32⟩ : BufTy).Contents (Elt F)),
    ternary main_v4 main_v6 main_v2 main_v7 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v7 main_v8 (broadcastInDim S524288x1 ![0] bcast_S524288_S524288x1_0 : (⟨S524288, .i32⟩ : BufTy).Contents (Elt F) → (⟨S524288x1, .i32⟩ : BufTy).Contents (Elt F)) ]

theorem stepB (W : Valuation τ sig (Elt F)) (x1 : X1 F)
    (h2 : W (Proc.devRef .tc main_v2) = val_main_v2 (F := F) x1) :
    after segB W (Proc.devRef .tc main_v8) = val_main_v8 (F := F) x1
    ∧ after segB W (Proc.devRef .tc main_v1) = W (Proc.devRef .tc main_v1)
    ∧ after segB W (Proc.devRef .tc main_v2) = W (Proc.devRef .tc main_v2)
    ∧ after segB W (Proc.devRef .tc main_arg0) = W (Proc.devRef .tc main_arg0)
    ∧ after segB W (Proc.devRef .tc main_arg2) = W (Proc.devRef .tc main_arg2) := by
  refine ⟨?_, ?_, ?_, ?_, ?_⟩
  · after_results; rw [h2]; rfl
  · after_results
  · after_results
  · after_results
  · after_results

/-! ## C — the gathered similarity rows over their row sums -/

abbrev segC : List (HloOp τ sig (Elt F)) :=
  [ binary main_arg2 main_v8 main_v9 ((fun x i => Host.gather gather_S170x170_S524288x1_S524288x170_1_0_n_n_0_1_1170 x i) : (⟨S170x170, .f32⟩ : BufTy).Contents (Elt F) → (⟨S524288x1, .i32⟩ : BufTy).Contents (Elt F) → (⟨S524288x170, .f32⟩ : BufTy).Contents (Elt F)),
    nullary main_cst (constant S_ .f32 0x00000000#32),
    binary main_v9 main_cst main_v10 ((fun x v => Host.reduceAdd x v reducesTo_S524288x170_S524288_d1 h_S_) : (⟨S524288x170, .f32⟩ : BufTy).Contents (Elt F) → (⟨S_, .f32⟩ : BufTy).Contents (Elt F) → (⟨S524288, .f32⟩ : BufTy).Contents (Elt F)),
    unary main_v10 main_v11 (broadcastInDim S524288x1 ![0] bcast_S524288_S524288x1_0 : (⟨S524288, .f32⟩ : BufTy).Contents (Elt F) → (⟨S524288x1, .f32⟩ : BufTy).Contents (Elt F)),
    unary main_v11 main_v12 (broadcastInDim S524288x170 ![0, 1] bcast_S524288x1_S524288x170_0_1 : (⟨S524288x1, .f32⟩ : BufTy).Contents (Elt F) → (⟨S524288x170, .f32⟩ : BufTy).Contents (Elt F)),
    binary main_v9 main_v12 main_v13 (Host.divf : (⟨S524288x170, .f32⟩ : BufTy).Contents (Elt F) → (⟨S524288x170, .f32⟩ : BufTy).Contents (Elt F) → (⟨S524288x170, .f32⟩ : BufTy).Contents (Elt F)) ]

theorem stepC (W : Valuation τ sig (Elt F)) (x1 : X1 F) (x2 : X2 F)
    (h8 : W (Proc.devRef .tc main_v8) = val_main_v8 (F := F) x1)
    (ha2 : W (Proc.devRef .tc main_arg2) = x2) :
    after segC W (Proc.devRef .tc main_v13) = val_main_v13 (F := F) x1 x2
    ∧ after segC W (Proc.devRef .tc main_v1) = W (Proc.devRef .tc main_v1)
    ∧ after segC W (Proc.devRef .tc main_v2) = W (Proc.devRef .tc main_v2)
    ∧ after segC W (Proc.devRef .tc main_arg0) = W (Proc.devRef .tc main_arg0) := by
  refine ⟨?_, ?_, ?_, ?_⟩
  · after_results; rw [h8, ha2]; rfl
  · after_results
  · after_results
  · after_results

/-! ## D — the one-hot rows of the safe label -/

abbrev segD : List (HloOp τ sig (Elt F)) :=
  [ TRef.unary (TRef.of (T := ⟨S524288, .i32⟩) main_v2) (TRef.of (T := ⟨S524288x1, .i32⟩) main_call1_v0) (broadcastInDim S524288x1 ![0] bcast_S524288_S524288x1_0),
    TRef.nullary (TRef.of (T := ⟨S1x170, .i32⟩) main_call1_v1) (iotaInDim S1x170 32 1),
    TRef.unary (TRef.of (T := ⟨S524288x1, .i32⟩) main_call1_v0) (TRef.of (T := ⟨S524288x170, .i32⟩) main_call1_v2) (broadcastInDim S524288x170 ![0, 1] bcast_S524288x1_S524288x170_0_1),
    TRef.unary (TRef.of (T := ⟨S1x170, .i32⟩) main_call1_v1) (TRef.of (T := ⟨S524288x170, .i32⟩) main_call1_v3) (broadcastInDim S524288x170 ![0, 1] bcast_S1x170_S524288x170_0_1),
    TRef.binary (TRef.of (T := ⟨S524288x170, .i32⟩) main_call1_v2) (TRef.of (T := ⟨S524288x170, .i32⟩) main_call1_v3) (TRef.of (T := ⟨S524288x170, .i1⟩) main_call1_v4) (cmpi .eq),
    TRef.unary (TRef.of (T := ⟨S524288x170, .i1⟩) main_call1_v4) (TRef.of (T := ⟨S524288x170, .f32⟩) main_v14) (uitofp .f32) ]

theorem stepD (W : Valuation τ sig (Elt F)) (x1 : X1 F)
    (h2 : W (Proc.devRef .tc main_v2) = val_main_v2 (F := F) x1) :
    after segD W (Proc.devRef .tc main_v14) = val_main_v14 (F := F) x1
    ∧ after segD W (Proc.devRef .tc main_v1) = W (Proc.devRef .tc main_v1)
    ∧ after segD W (Proc.devRef .tc main_v13) = W (Proc.devRef .tc main_v13)
    ∧ after segD W (Proc.devRef .tc main_arg0) = W (Proc.devRef .tc main_arg0) := by
  refine ⟨?_, ?_, ?_, ?_⟩
  · after_results; rw [h2]; rfl
  · after_results
  · after_results
  · after_results

/-! ## E — the soft label: 0.8 of the one-hot row plus 0.2 of the normalized similarity row -/

abbrev segE : List (HloOp τ sig (Elt F)) :=
  [ nullary main_cst_3 (constant S_ .f32 0x3F4CCCCD#32),
    unary main_cst_3 main_v15 (broadcastInDim S524288x170 ![] bcast_S_S524288x170 : (⟨S_, .f32⟩ : BufTy).Contents (Elt F) → (⟨S524288x170, .f32⟩ : BufTy).Contents (Elt F)),
    binary main_v15 main_v14 main_v16 (mulf : (⟨S524288x170, .f32⟩ : BufTy).Contents (Elt F) → (⟨S524288x170, .f32⟩ : BufTy).Contents (Elt F) → (⟨S524288x170, .f32⟩ : BufTy).Contents (Elt F)),
    nullary main_cst_4 (constant S_ .f32 0x3E4CCCCD#32),
    unary main_cst_4 main_v17 (broadcastInDim S524288x170 ![] bcast_S_S524288x170 : (⟨S_, .f32⟩ : BufTy).Contents (Elt F) → (⟨S524288x170, .f32⟩ : BufTy).Contents (Elt F)),
    binary main_v17 main_v13 main_v18 (mulf : (⟨S524288x170, .f32⟩ : BufTy).Contents (Elt F) → (⟨S524288x170, .f32⟩ : BufTy).Contents (Elt F) → (⟨S524288x170, .f32⟩ : BufTy).Contents (Elt F)),
    binary main_v16 main_v18 main_v19 (addf : (⟨S524288x170, .f32⟩ : BufTy).Contents (Elt F) → (⟨S524288x170, .f32⟩ : BufTy).Contents (Elt F) → (⟨S524288x170, .f32⟩ : BufTy).Contents (Elt F)) ]

theorem stepE (W : Valuation τ sig (Elt F)) (x1 : X1 F) (x2 : X2 F)
    (h14 : W (Proc.devRef .tc main_v14) = val_main_v14 (F := F) x1)
    (h13 : W (Proc.devRef .tc main_v13) = val_main_v13 (F := F) x1 x2) :
    after segE W (Proc.devRef .tc main_v19) = val_main_v19 (F := F) x1 x2
    ∧ after segE W (Proc.devRef .tc main_v1) = W (Proc.devRef .tc main_v1)
    ∧ after segE W (Proc.devRef .tc main_arg0) = W (Proc.devRef .tc main_arg0) := by
  refine ⟨?_, ?_, ?_⟩
  · after_results; rw [h14, h13]; rfl
  · after_results
  · after_results

/-! ## F — the soft label times the mask -/

abbrev segF : List (HloOp τ sig (Elt F)) :=
  [ unary main_v1 main_v20 (broadcastInDim S524288x1 ![0] bcast_S524288_S524288x1_0 : (⟨S524288, .i1⟩ : BufTy).Contents (Elt F) → (⟨S524288x1, .i1⟩ : BufTy).Contents (Elt F)),
    unary main_v20 main_v21 (uitofp .f32 : (⟨S524288x1, .i1⟩ : BufTy).Contents (Elt F) → (⟨S524288x1, .f32⟩ : BufTy).Contents (Elt F)),
    unary main_v21 main_v22 (broadcastInDim S524288x170 ![0, 1] bcast_S524288x1_S524288x170_0_1 : (⟨S524288x1, .f32⟩ : BufTy).Contents (Elt F) → (⟨S524288x170, .f32⟩ : BufTy).Contents (Elt F)),
    binary main_v19 main_v22 main_v23 (mulf : (⟨S524288x170, .f32⟩ : BufTy).Contents (Elt F) → (⟨S524288x170, .f32⟩ : BufTy).Contents (Elt F) → (⟨S524288x170, .f32⟩ : BufTy).Contents (Elt F)) ]

theorem stepF (W : Valuation τ sig (Elt F)) (x1 : X1 F) (x2 : X2 F)
    (h1 : W (Proc.devRef .tc main_v1) = val_main_v1 (F := F) x1)
    (h19 : W (Proc.devRef .tc main_v19) = val_main_v19 (F := F) x1 x2) :
    after segF W (Proc.devRef .tc main_v23) = val_main_v23 (F := F) x1 x2
    ∧ after segF W (Proc.devRef .tc main_arg0) = W (Proc.devRef .tc main_arg0) := by
  refine ⟨?_, ?_⟩
  · after_results; rw [h19, h1]; rfl
  · after_results

/-! ## G — the row maximum of the logits -/

abbrev segG : List (HloOp τ sig (Elt F)) :=
  [ TRef.nullary (TRef.of (T := ⟨S_, .f32⟩) main_call2_cst) (constant S_ .f32 0xFF800000#32),
    TRef.binary (TRef.of (T := ⟨S524288x170, .f32⟩) main_arg0) (TRef.of (T := ⟨S_, .f32⟩) main_call2_cst) (TRef.of (T := ⟨S524288, .f32⟩) main_call2_v0) (fun x v => Host.reduce FloatOps.maximumf x v reducesTo_S524288x170_S524288_d1 h_S_) ]

theorem stepG (W : Valuation τ sig (Elt F)) (x0 : X0 F)
    (h0 : W (Proc.devRef .tc main_arg0) = x0) :
    after segG W (Proc.devRef .tc main_call2_v0) = val_main_call2_v0 (F := F) x0
    ∧ after segG W (Proc.devRef .tc main_arg0) = W (Proc.devRef .tc main_arg0)
    ∧ after segG W (Proc.devRef .tc main_v23) = W (Proc.devRef .tc main_v23) := by
  refine ⟨?_, ?_, ?_⟩
  · after_results; rw [h0]
    -- the row maximum is a fold over the operand's 89,128,960 elements and is never opened: the stage is spelt out
    -- down to it, and what is left between the two sides are the transports along the typed references' type
    -- equations, identities at these literal references
    unfold val_main_call2_v0 val_main_call2_cst
    simp only [TRef.ofBuf, TRef.toBuf, cast_eq]
  · after_results
  · after_results

/-! ## H — the logits minus their row maximum -/

abbrev segH : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S524288, .f32⟩) main_call2_v1) (broadcastInDim S524288 ![] bcast_S_S524288),
    TRef.binary (TRef.of (T := ⟨S524288, .f32⟩) main_call2_v1) (TRef.of (T := ⟨S524288, .f32⟩) main_call2_v0) (TRef.of (T := ⟨S524288, .f32⟩) main_call2_v2) maximumf,
    TRef.unary (TRef.of (T := ⟨S524288, .f32⟩) main_call2_v2) (TRef.of (T := ⟨S524288x1, .f32⟩) main_call2_v3) (broadcastInDim S524288x1 ![0] bcast_S524288_S524288x1_0),
    TRef.unary (TRef.of (T := ⟨S524288x1, .f32⟩) main_call2_v3) (TRef.of (T := ⟨S524288x170, .f32⟩) main_call2_v4) (broadcastInDim S524288x170 ![0, 1] bcast_S524288x1_S524288x170_0_1),
    TRef.binary (TRef.of (T := ⟨S524288x170, .f32⟩) main_arg0) (TRef.of (T := ⟨S524288x170, .f32⟩) main_call2_v4) (TRef.of (T := ⟨S524288x170, .f32⟩) main_call2_v5) subf ]

/-- The shift, over ANY row maxima `y`: the stretch never looks inside them. -/
theorem stepH_of (W : Valuation τ sig (Elt F)) (x0 : X0 F) (y : (⟨S524288, .f32⟩ : BufTy).Contents (Elt F))
    (h0 : W (Proc.devRef .tc main_arg0) = x0) (hm : W (Proc.devRef .tc main_call2_v0) = y) :
    after segH W (Proc.devRef .tc main_call2_v5)
      = subf x0 (broadcastInDim S524288x170 ![0, 1] bcast_S524288x1_S524288x170_0_1
          (broadcastInDim S524288x1 ![0] bcast_S524288_S524288x1_0 (maximumf (val_main_call2_v1 (F := F)) y))) := by
  after_results; rw [h0, hm]; rfl

theorem stepH (W : Valuation τ sig (Elt F)) (x0 : X0 F)
    (h0 : W (Proc.devRef .tc main_arg0) = x0)
    (hm : W (Proc.devRef .tc main_call2_v0) = val_main_call2_v0 (F := F) x0) :
    after segH W (Proc.devRef .tc main_call2_v5) = val_main_call2_v5 (F := F) x0
    ∧ after segH W (Proc.devRef .tc main_v23) = W (Proc.devRef .tc main_v23) := by
  refine ⟨?_, ?_⟩
  · exact (stepH_of W x0 _ h0 hm).trans rfl
  · after_results

/-! ## I — the log-softmax: shifted logits minus the log of the row sum of their exponentials -/

abbrev segI : List (HloOp τ sig (Elt F)) :=
  [ TRef.unary (TRef.of (T := ⟨S524288x170, .f32⟩) main_call2_v5) (TRef.of (T := ⟨S524288x170, .f32⟩) main_call2_v6) Host.exp,
    TRef.nullary (TRef.of (T := ⟨S_, .f32⟩) main_call2_cst_1) (constant S_ .f32 0x00000000#32),
    TRef.binary (TRef.of (T := ⟨S524288x170, .f32⟩) main_call2_v6) (TRef.of (T := ⟨S_, .f32⟩) main_call2_cst_1) (TRef.of (T := ⟨S524288, .f32⟩) main_call2_v7) (fun x v => Host.reduceAdd x v reducesTo_S524288x170_S524288_d1 h_S_),
    TRef.unary (TRef.of (T := ⟨S524288, .f32⟩) main_call2_v7) (TRef.of (T := ⟨S524288x1, .f32⟩) main_call2_v8) (broadcastInDim S524288x1 ![0] bcast_S524288_S524288x1_0),
    TRef.unary (TRef.of (T := ⟨S524288x1, .f32⟩) main_call2_v8) (TRef.of (T := ⟨S524288x1, .f32⟩) main_call2_v9) Host.log,
    TRef.unary (TRef.of (T := ⟨S524288x1, .f32⟩) main_call2_v9) (TRef.of (T := ⟨S524288x170, .f32⟩) main_call2_v10) (broadcastInDim S524288x170 ![0, 1] bcast_S524288x1_S524288x170_0_1),
    TRef.binary (TRef.of (T := ⟨S524288x170, .f32⟩) main_call2_v5) (TRef.of (T := ⟨S524288x170, .f32⟩) main_call2_v10) (TRef.of (T := ⟨S524288x170, .f32⟩) main_v24) subf ]

theorem stepI (W : Valuation τ sig (Elt F)) (x0 : X0 F)
    (h5 : W (Proc.devRef .tc main_call2_v5) = val_main_call2_v5 (F := F) x0) :
    after segI W (Proc.devRef .tc main_v24) = val_main_v24 (F := F) x0
    ∧ after segI W (Proc.devRef .tc main_v23) = W (Proc.devRef .tc main_v23) := by
  refine ⟨?_, ?_⟩
  · after_results; rw [h5]; rfl
  · after_results

/-! ## J — where the masked soft label is positive, and the logarithm's guarded argument (the label there, else 1) -/

abbrev segJ : List (HloOp τ sig (Elt F)) :=
  [ nullary main_cst_5 (constant S_ .f32 0x00000000#32),
    unary main_cst_5 main_v25 (broadcastInDim S524288x170 ![] bcast_S_S524288x170 : (⟨S_, .f32⟩ : BufTy).Contents (Elt F) → (⟨S524288x170, .f32⟩ : BufTy).Contents (Elt F)),
    binary main_v23 main_v25 main_v26 (cmpf .ogt : (⟨S524288x170, .f32⟩ : BufTy).Contents (Elt F) → (⟨S524288x170, .f32⟩ : BufTy).Contents (Elt F) → (⟨S524288x170, .i1⟩ : BufTy).Contents (Elt F)),
    nullary main_cst_6 (constant S_ .f32 0x3F800000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S524288x170, .f32⟩) main_call3_v1) (broadcastInDim S524288x170 ![] bcast_S_S524288x170),
    TRef.ternary (TRef.of (T := ⟨S524288x170, .i1⟩) main_v26) (TRef.of (T := ⟨S524288x170, .f32⟩) main_v23) (TRef.of (T := ⟨S524288x170, .f32⟩) main_call3_v1) (TRef.of (T := ⟨S524288x170, .f32⟩) main_v27) select ]

theorem stepJ (W : Valuation τ sig (Elt F)) (x1 : X1 F) (x2 : X2 F)
    (h23 : W (Proc.devRef .tc main_v23) = val_main_v23 (F := F) x1 x2) :
    after segJ W (Proc.devRef .tc main_v26) = val_main_v26 (F := F) x1 x2
    ∧ after segJ W (Proc.devRef .tc main_v27) = val_main_v27 (F := F) x1 x2
    ∧ after segJ W (Proc.devRef .tc main_v23) = W (Proc.devRef .tc main_v23)
    ∧ after segJ W (Proc.devRef .tc main_v24) = W (Proc.devRef .tc main_v24) := by
  refine ⟨?_, ?_, ?_, ?_⟩
  · after_results; rw [h23]; rfl
  · after_results; rw [h23]; rfl
  · after_results
  · after_results

/-! ## K — the pointwise term: p · (log p − logsoftmax) where p > 0, else 0 -/

abbrev segK : List (HloOp τ sig (Elt F)) :=
  [ unary main_v27 main_v28 (Host.log : (⟨S524288x170, .f32⟩ : BufTy).Contents (Elt F) → (⟨S524288x170, .f32⟩ : BufTy).Contents (Elt F)),
    binary main_v28 main_v24 main_v29 (subf : (⟨S524288x170, .f32⟩ : BufTy).Contents (Elt F) → (⟨S524288x170, .f32⟩ : BufTy).Contents (Elt F) → (⟨S524288x170, .f32⟩ : BufTy).Contents (Elt F)),
    binary main_v23 main_v29 main_v30 (mulf : (⟨S524288x170, .f32⟩ : BufTy).Contents (Elt F) → (⟨S524288x170, .f32⟩ : BufTy).Contents (Elt F) → (⟨S524288x170, .f32⟩ : BufTy).Contents (Elt F)),
    nullary main_cst_7 (constant S_ .f32 0x00000000#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S524288x170, .f32⟩) main_call4_v1) (broadcastInDim S524288x170 ![] bcast_S_S524288x170),
    TRef.ternary (TRef.of (T := ⟨S524288x170, .i1⟩) main_v26) (TRef.of (T := ⟨S524288x170, .f32⟩) main_v30) (TRef.of (T := ⟨S524288x170, .f32⟩) main_call4_v1) (TRef.of (T := ⟨S524288x170, .f32⟩) main_v31) select ]

theorem stepK (W : Valuation τ sig (Elt F)) (x0 : X0 F) (x1 : X1 F) (x2 : X2 F)
    (h23 : W (Proc.devRef .tc main_v23) = val_main_v23 (F := F) x1 x2)
    (h24 : W (Proc.devRef .tc main_v24) = val_main_v24 (F := F) x0)
    (h26 : W (Proc.devRef .tc main_v26) = val_main_v26 (F := F) x1 x2)
    (h27 : W (Proc.devRef .tc main_v27) = val_main_v27 (F := F) x1 x2) :
    after segK W (Proc.devRef .tc main_v31) = val_main_v31 (F := F) x0 x1 x2 := by
  after_results; rw [h26, h23, h27, h24]; rfl

/-! ## L — the total over rows and classes, over the number of rows, clamped at zero from below -/

abbrev segL : List (HloOp τ sig (Elt F)) :=
  [ nullary main_cst_8 (constant S_ .f32 0x00000000#32),
    binary main_v31 main_cst_8 main_v32 ((fun x v => Host.reduceAdd x v reducesTo_S524288x170_S_d0_1 h_S_) : (⟨S524288x170, .f32⟩ : BufTy).Contents (Elt F) → (⟨S_, .f32⟩ : BufTy).Contents (Elt F) → (⟨S_, .f32⟩ : BufTy).Contents (Elt F)),
    nullary main_cst_9 (constant S_ .f32 0x49000000#32),
    binary main_v32 main_cst_9 main_v33 (Host.divf : (⟨S_, .f32⟩ : BufTy).Contents (Elt F) → (⟨S_, .f32⟩ : BufTy).Contents (Elt F) → (⟨S_, .f32⟩ : BufTy).Contents (Elt F)),
    nullary main_cst_10 (constant S_ .f32 0x00000000#32),
    binary main_v33 main_cst_10 main_v34 (maximumf : (⟨S_, .f32⟩ : BufTy).Contents (Elt F) → (⟨S_, .f32⟩ : BufTy).Contents (Elt F) → (⟨S_, .f32⟩ : BufTy).Contents (Elt F)) ]

theorem stepL (W : Valuation τ sig (Elt F)) (x0 : X0 F) (x1 : X1 F) (x2 : X2 F)
    (h31 : W (Proc.devRef .tc main_v31) = val_main_v31 (F := F) x0 x1 x2) :
    after segL W (Proc.devRef .tc main_v34) = val_main_v34 (F := F) x0 x1 x2 := by
  after_results; rw [h31]; rfl

/-! ## The whole line -/

set_option maxRecDepth 8192 in
/-- The 73 operations are the twelve stretches in a row. -/
theorem ops_cut : (ops : List (HloOp τ sig (Elt F)))
    = segA ++ (segB ++ (segC ++ (segD ++ (segE ++ (segF ++ (segG ++ (segH ++ (segI ++ (segJ ++ (segK ++ segL)))))))))) := rfl

/-- After the whole line the result buffer holds the last stage of the three argument arrays. -/
theorem stage (V : Valuation τ sig (Elt F)) :
    after ops V (Proc.devRef .tc main_v34)
      = val_main_v34 (F := F) (V (Proc.devRef .tc main_arg0)) (V (Proc.devRef .tc main_arg1)) (V (Proc.devRef .tc main_arg2)) := by
  rw [ops_cut]
  simp only [StableHlo.after_append]
  obtain ⟨a1, a2, a0, aa2⟩ := stepA V _ rfl
  obtain ⟨b8, b1, b2, b0, ba2⟩ := stepB _ _ a2
  obtain ⟨c13, c1, c2, c0⟩ := stepC _ _ _ b8 (ba2.trans aa2)
  obtain ⟨d14, d1, d13, d0⟩ := stepD _ _ (c2.trans (b2.trans a2))
  obtain ⟨e19, e1, e0⟩ := stepE _ _ _ d14 (d13.trans c13)
  obtain ⟨f23, f0⟩ := stepF _ _ _ (e1.trans (d1.trans (c1.trans (b1.trans a1)))) e19
  have p0 := f0.trans (e0.trans (d0.trans (c0.trans (b0.trans a0))))
  obtain ⟨g0m, g0, g23⟩ := stepG _ _ p0
  obtain ⟨h5, h23⟩ := stepH _ _ (g0.trans p0) g0m
  obtain ⟨i24, i23⟩ := stepI _ _ h5
  have p23 := i23.trans (h23.trans (g23.trans f23))
  obtain ⟨j26, j27, j23, j24⟩ := stepJ _ _ _ p23
  exact stepL _ _ _ _ (stepK _ _ _ _ (j23.trans p23) (j24.trans i24) j26 j27)

/-- The run of a straight line (`run_seq`) leaves every buffer at the fold of the operations over what the device's
    buffers held at launch. At the result buffer that fold is the last stage of the three argument arrays (`stage`);
    at an argument buffer it is the launch contents, no operation writing there. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = val_main_v34 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v34).trans (stage (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunHand

end
-- ==== Proof.lean ====
/-
  A soft-label KL loss over 524288 rows and 170 classes: a kernel that gathers per-class tables by a one-hot product
  against the direct formula.

  Both programs form, for every class i, the soft-label row  p_i = a·e_i + b·S_i / ΣS_i  from the similarity matrix S
  (a, b the f32 words of 0.8 and 0.2), take the log-softmax λ of each row of logits, and return the batch mean,
  clamped below at zero, of the rows' losses; a row labelled −100 contributes nothing.

  The reference forms the row's soft label p from the label's similarity row and sums  [p_c > 0]·p_c·(log p_c − λ_c)
  over the classes.  The kernel tabulates the rows p_i and their entropies  e_i = Σ_c [p > 0]·p·log p  once, splits each
  table as x + (x − x), gathers the label's row of each by a product with the label's one-hot row, and takes
  e − Σ_c p_c·λ_c;  it accumulates the rows' losses block by block (128 blocks of 4096 rows, two running totals of 64
  blocks each), and the host adds the two totals, divides by the batch size and clamps.

  Over the extended reals the two agree when the inputs are finite, every label is −100 or a class below 170, and
  every soft-label row is nonnegative: then the tables are real (a row of S summing to zero would give a soft label
  −∞ somewhere), x + (x − x) = x, a one-hot product reads the label's row, the log-softmax is real, and for real
  p ≥ 0:  Σ_c [p_c > 0]·p_c·log p_c − Σ_c p_c·λ_c = Σ_c [p_c > 0]·p_c·(log p_c − λ_c)  since p_c = 0 gives 0 on both
  sides (`Spec.rowK_eq_rowR`).  Finite sums over the extended reals regroup freely, so the block-wise totals are the
  sum over all rows (`Spec.accum_total`).  Without the sign condition the claim fails: a negative p_c is dropped by
  the reference's mask but kept in the kernel's Σ_c p_c·λ_c.

  The kernel's run is read off its frame run: what the accumulated block holds point by point, the two blocks
  written back, and the host's last lines.  The reference's run is read stage by stage.  The idealization rewrote
  nothing, so `preserves` is trivial.
-/
import proofs.«418023_j52089363366642_3_alg».proof.Defs
import proofs.«418023_j52089363366642_3_alg».proof.Proof.Gen.Kernel
import proofs.«418023_j52089363366642_3_alg».proof.Proof.Gen.Kernel.Skeleton
import proofs.«418023_j52089363366642_3_alg».proof.Proof.Gen.Kernel.Launch
import proofs.«418023_j52089363366642_3_alg».proof.Proof.Gen.Kernel.Points
import proofs.«418023_j52089363366642_3_alg».proof.Proof.Gen.Kernel.Frame
import proofs.«418023_j52089363366642_3_alg».proof.Proof.Gen.KernelIdeal
import proofs.«418023_j52089363366642_3_alg».proof.Proof.Gen.KernelIdeal.Skeleton
import proofs.«418023_j52089363366642_3_alg».proof.Proof.Gen.KernelIdeal.Launch
import proofs.«418023_j52089363366642_3_alg».proof.Proof.Gen.KernelIdeal.Points
import proofs.«418023_j52089363366642_3_alg».proof.Proof.Gen.KernelIdeal.Frame
import proofs.«418023_j52089363366642_3_alg».proof.Proof.Gen.ReferenceIdeal
import proofs.«418023_j52089363366642_3_alg».proof.Proof.Gen.Pre_finite_inputs
import proofs.«418023_j52089363366642_3_alg».proof.Proof.KAssemble
import proofs.«418023_j52089363366642_3_alg».proof.Proof.SpecMath
import proofs.«418023_j52089363366642_3_alg».proof.Proof.PreFacts
import proofs.«418023_j52089363366642_3_alg».proof.Proof.RefValue
import proofs.«418023_j52089363366642_3_alg».proof.Proof.RefRunHand
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The idealization rewrote nothing. -/
theorem preserves : Cert.preserves_Kernel_KernelIdeal := trivial

/-- Both runs end at the batch mean, clamped at zero, of the sum over all rows of the table arrangement's row loss:
    the kernel's two block-wise totals add up to it, and the reference's sum of direct row losses equals it row by
    row under the precondition. -/
theorem algebraic : Cert.algebraic_KernelIdeal_ReferenceIdeal := by
  intro m ρ m' ρ' hpre hagree
  refine ⟨fun c _ => Cert.Spec.mean0 (∑ r : Fin 524288, Cert.KernelIdeal.KA.fK m c r), ?_, ?_⟩
  · exact (θ_run Cert.KernelIdeal.defs _ _).mono
      (fun _ h c => ⟨(h c).1.trans (funext fun _ => congrArg Cert.Spec.mean0 (Cert.KernelIdeal.KA.kernel_total m c _ _)), (h c).2⟩)
      (Cert.KernelIdeal.KV.run m ρ)
  · refine (θ_run Cert.ReferenceIdeal.defs _ _).mono (fun _ h c => ⟨(h c).1.trans ?_, (h c).2⟩)
      (Cert.ReferenceIdeal.RunHand.run (F := Ideal) m' ρ')
    obtain ⟨hL, hS, hT, hpos⟩ := Cert.PreFacts.facts_of_pre _ _ _ (hpre c)
    rw [(hagree c).1, (hagree c).2.1, (hagree c).2.2, Cert.RefValue.res_eq _ _ _ hT]
    exact funext fun _ => congrArg Cert.Spec.mean0
      (Finset.sum_congr rfl fun r _ => (Cert.Spec.rowK_eq_rowR _ _ _ hS (hL r) (hT r) hpos).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
